-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x5 : Shape := ⟨2, ![4194304, 5]⟩
abbrev S4194304 : Shape := ⟨1, ![4194304]⟩
abbrev S_ : Shape := ⟨0, ![]⟩

class Facts : Prop where
  bcast_S_S4194304x5 : S_.BroadcastsInDim S4194304x5 (![] : Fin 0 → Fin S4194304x5.rank)
  reducesTo_S4194304x5_S_d0_1 : S4194304x5.ReducesTo [0, 1] S_
  h_S_ : 0 < S_.numel

variable [Facts]

def fn {F : FTy → Type} [FloatOps F] (main_arg0 : FVec F S4194304x5 .f32) (main_arg1 : IVec S4194304 32) : IVec S_ 1 :=
  let main_v0 : FVec F S4194304x5 .f32 := Host.absf main_arg0
  let main_cst : FVec F S_ .f32 := constant S_ .f32 0x7F800000#32
  let main_v1 : FVec F S4194304x5 .f32 := broadcastInDim S4194304x5 ![] bcast_S_S4194304x5 main_cst
  let main_v2 : IVec S4194304x5 1 := cmpf .olt main_v0 main_v1
  let main_c : IVec S_ 1 := constantI S_ 1 1#1
  let main_v3 : IVec S_ 1 := (fun x v => Host.reduce IntOp.andi x v reducesTo_S4194304x5_S_d0_1 h_S_) main_v2 main_c
  main_v3
-- ==== Kernel.lean ====
abbrev S4194304x5 : Shape := ⟨2, ![4194304, 5]⟩
abbrev S4194304 : Shape := ⟨1, ![4194304]⟩
abbrev S5x4194304 : Shape := ⟨2, ![5, 4194304]⟩
abbrev S1x4194304 : Shape := ⟨2, ![1, 4194304]⟩
abbrev S1x1 : Shape := ⟨2, ![1, 1]⟩
abbrev S5x65536 : Shape := ⟨2, ![5, 65536]⟩
abbrev S1x65536 : Shape := ⟨2, ![1, 65536]⟩
abbrev S5x1 : Shape := ⟨2, ![5, 1]⟩
abbrev S65536 : Shape := ⟨1, ![65536]⟩
abbrev S5 : Shape := ⟨1, ![5]⟩
abbrev S1 : Shape := ⟨1, ![1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S4194304x5, .f32⟩
  | .hbm, ⟨1, _⟩ => ⟨S4194304, .i32⟩
  | .hbm, ⟨2, _⟩ => ⟨S5x4194304, .f32⟩
  | .hbm, ⟨3, _⟩ => ⟨S1x4194304, .i32⟩
  | .hbm, ⟨4, _⟩ => ⟨S1x1, .f32⟩
  | .hbm, ⟨5, _⟩ => ⟨S_, .f32⟩
  | .local _ .vmem, ⟨0, _⟩ => ⟨S5x65536, .f32⟩
  | .local _ .vmem, ⟨1, _⟩ => ⟨S5x65536, .f32⟩
  | .local _ .vmem, ⟨2, _⟩ => ⟨S1x65536, .i32⟩
  | .local _ .vmem, ⟨3, _⟩ => ⟨S1x65536, .i32⟩
  | .local _ .vmem, ⟨4, _⟩ => ⟨S1x1, .f32⟩
  | .local _ .vmem, ⟨5, _⟩ => ⟨S5x1, .f32⟩
  | .local _ .vmem, ⟨6, _⟩ => ⟨S5x1, .f32⟩
  | _, _ => ⟨S4194304x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x65536 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  transposes_S4194304x5_S5x4194304_1_0 : S4194304x5.Transposes [1, 0] S5x4194304
  shapeCasts_S4194304_S1x4194304 : S4194304.ShapeCasts S1x4194304
  inb_S5x1_S5x1_0_0 : ∀ a, (![0, 0] : Fin 2 → Nat) a + S5x1.size a ≤ S5x1.size a
  h_S5x1 : 0 < S5x1.numel
  shapeCasts_S5x1_S5x1 : S5x1.ShapeCasts S5x1
  inb_S5x65536_S5x65536_0_0 : ∀ a, (![0, 0] : Fin 2 → Nat) a + S5x65536.size a ≤ S5x65536.size a
  h_S5x65536 : 0 < S5x65536.numel
  shapeCasts_S5x65536_S5x65536 : S5x65536.ShapeCasts S5x65536
  inb_S1x65536_S1x65536_0_0 : ∀ a, (![0, 0] : Fin 2 → Nat) a + S1x65536.size a ≤ S1x65536.size a
  h_S1x65536 : 0 < S1x65536.numel
  shapeCasts_S1x65536_S1x65536 : S1x65536.ShapeCasts S1x65536
  reduces_S5x65536_S65536 : S5x65536.Reduces [0] S65536
  shapeCasts_S65536_S1x65536 : S65536.ShapeCasts S1x65536
  broadcasts_S1x65536_S5x65536 : S1x65536.Broadcasts S5x65536
  iota_S5x65536_d0_w32 : S5x65536.Iotas .tc 32 [0]
  natLt_1_32 : 1 < 32
  reduces_S5x65536_S5 : S5x65536.Reduces [1] S5
  shapeCasts_S5_S5x1 : S5.ShapeCasts S5x1
  reduces_S5x1_S1 : S5x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x65536.size a ≤ S5x4194304.size a
  hwx0_0 : ∀ i : grid0.Coords, EltTy.bits .f32 = 32 ∨ (Rect.block (s := S5x4194304) S5x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x65536.size a ≤ S1x4194304.size a
  hwx0_1 : ∀ i : grid0.Coords, EltTy.bits .i32 = 32 ∨ (Rect.block (s := S1x4194304) S1x65536.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S5x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4194304x5 : Shape := ⟨2, ![4194304, 5]⟩
abbrev S4194304 : Shape := ⟨1, ![4194304]⟩
abbrev S_ : Shape := ⟨0, ![]⟩
abbrev S4194304x1 : Shape := ⟨2, ![4194304, 1]⟩
abbrev S4194304x1x1 : Shape := ⟨3, ![4194304, 1, 1]⟩
abbrev S1 : Shape := ⟨1, ![1]⟩
abbrev S1x1x1 : Shape := ⟨3, ![1, 1, 1]⟩
abbrev S5 : Shape := ⟨1, ![5]⟩

abbrev nBuf : Space → Nat
  | .hbm => 65
  | .vmem => 0
  | .smem => 0
  | _ => 0

abbrev bufTy : (tb : Table) → Fin (tcTables nBuf tb) → BufTy
  | .hbm, ⟨0, _⟩ => ⟨S4194304x5, .f32⟩
  | .hbm, ⟨1, _⟩ => ⟨S4194304, .i32⟩
  | .hbm, ⟨2, _⟩ => ⟨S_, .f32⟩
  | .hbm, ⟨3, _⟩ => ⟨S4194304, .f32⟩
  | .hbm, ⟨4, _⟩ => ⟨S_, .f32⟩
  | .hbm, ⟨5, _⟩ => ⟨S4194304, .f32⟩
  | .hbm, ⟨6, _⟩ => ⟨S4194304, .f32⟩
  | .hbm, ⟨7, _⟩ => ⟨S4194304x1, .f32⟩
  | .hbm, ⟨8, _⟩ => ⟨S4194304x5, .f32⟩
  | .hbm, ⟨9, _⟩ => ⟨S4194304x5, .f32⟩
  | .hbm, ⟨10, _⟩ => ⟨S4194304x5, .f32⟩
  | .hbm, ⟨11, _⟩ => ⟨S_, .f32⟩
  | .hbm, ⟨12, _⟩ => ⟨S4194304, .f32⟩
  | .hbm, ⟨13, _⟩ => ⟨S4194304x1, .f32⟩
  | .hbm, ⟨14, _⟩ => ⟨S4194304x1, .f32⟩
  | .hbm, ⟨15, _⟩ => ⟨S4194304x5, .f32⟩
  | .hbm, ⟨16, _⟩ => ⟨S4194304x5, .f32⟩
  | .hbm, ⟨17, _⟩ => ⟨S4194304x1, .i32⟩
  | .hbm, ⟨18, _⟩ => ⟨S_, .i32⟩
  | .hbm, ⟨19, _⟩ => ⟨S4194304x1, .i32⟩
  | .hbm, ⟨20, _⟩ => ⟨S4194304x1, .i1⟩
  | .hbm, ⟨21, _⟩ => ⟨S_, .i32⟩
  | .hbm, ⟨22, _⟩ => ⟨S4194304x1, .i32⟩
  | .hbm, ⟨23, _⟩ => ⟨S4194304x1, .i32⟩
  | .hbm, ⟨24, _⟩ => ⟨S4194304x1, .i32⟩
  | .hbm, ⟨25, _⟩ => ⟨S4194304x1x1, .i32⟩
  | .hbm, ⟨26, _⟩ => ⟨S1, .i32⟩
  | .hbm, ⟨27, _⟩ => ⟨S_, .i32⟩
  | .hbm, ⟨28, _⟩ => ⟨S4194304x1x1, .i32⟩
  | .hbm, ⟨29, _⟩ => ⟨S4194304x1x1, .i1⟩
  | .hbm, ⟨30, _⟩ => ⟨S1x1x1, .i32⟩
  | .hbm, ⟨31, _⟩ => ⟨S4194304x1x1, .i32⟩
  | .hbm, ⟨32, _⟩ => ⟨S4194304x1x1, .i1⟩
  | .hbm, ⟨33, _⟩ => ⟨S4194304x1x1, .i1⟩
  | .hbm, ⟨34, _⟩ => ⟨S_, .i1⟩
  | .hbm, ⟨35, _⟩ => ⟨S4194304x1, .i1⟩
  | .hbm, ⟨36, _⟩ => ⟨S4194304x1, .f32⟩
  | .hbm, ⟨37, _⟩ => ⟨S_, .f32⟩
  | .hbm, ⟨38, _⟩ => ⟨S4194304x1, .f32⟩
  | .hbm, ⟨39, _⟩ => ⟨S4194304x1, .f32⟩
  | .hbm, ⟨40, _⟩ => ⟨S4194304, .f32⟩
  | .hbm, ⟨41, _⟩ => ⟨S4194304, .f32⟩
  | .hbm, ⟨42, _⟩ => ⟨S_, .f32⟩
  | .hbm, ⟨43, _⟩ => ⟨S5, .f32⟩
  | .hbm, ⟨44, _⟩ => ⟨S4194304x1, .i32⟩
  | .hbm, ⟨45, _⟩ => ⟨S5, .f32⟩
  | .hbm, ⟨46, _⟩ => ⟨S_, .f32⟩
  | .hbm, ⟨47, _⟩ => ⟨S4194304, .f32⟩
  | .hbm, ⟨48, _⟩ => ⟨S_, .f32⟩
  | .hbm, ⟨49, _⟩ => ⟨S5, .f32⟩
  | .hbm, ⟨50, _⟩ => ⟨S4194304x1, .i32⟩
  | .hbm, ⟨51, _⟩ => ⟨S5, .f32⟩
  | .hbm, ⟨52, _⟩ => ⟨S_, .f32⟩
  | .hbm, ⟨53, _⟩ => ⟨S5, .f32⟩
  | .hbm, ⟨54, _⟩ => ⟨S5, .i1⟩
  | .hbm, ⟨55, _⟩ => ⟨S_, .f32⟩
  | .hbm, ⟨56, _⟩ => ⟨S5, .f32⟩
  | .hbm, ⟨57, _⟩ => ⟨S5, .f32⟩
  | .hbm, ⟨58, _⟩ => ⟨S5, .f32⟩
  | .hbm, ⟨59, _⟩ => ⟨S_, .f32⟩
  | .hbm, ⟨60, _⟩ => ⟨S_, .f32⟩
  | .hbm, ⟨61, _⟩ => ⟨S5, .f32⟩
  | .hbm, ⟨62, _⟩ => ⟨S5, .f32⟩
  | .hbm, ⟨63, _⟩ => ⟨S_, .f32⟩
  | .hbm, ⟨64, _⟩ => ⟨S_, .f32⟩
  | _, _ => ⟨S4194304x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_cst : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_cst_0 : Ref sig .tc := ⟨.hbm, 46, rfl⟩
abbrev main_v8 : Ref sig .tc := ⟨.hbm, 47, rfl⟩
abbrev main_cst_1 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_cst_2 : Ref sig .tc := ⟨.hbm, 52, rfl⟩
abbrev main_v12 : Ref sig .tc := ⟨.hbm, 53, rfl⟩
abbrev main_v13 : Ref sig .tc := ⟨.hbm, 54, rfl⟩
abbrev main_cst_3 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_cst_4 : Ref sig .tc := ⟨.hbm, 59, rfl⟩
abbrev main_call2_v0 : Ref sig .tc := ⟨.hbm, 60, rfl⟩
abbrev main_call2_v1 : Ref sig .tc := ⟨.hbm, 61, rfl⟩
abbrev main_v17 : Ref sig .tc := ⟨.hbm, 62, rfl⟩
abbrev main_cst_5 : Ref sig .tc := ⟨.hbm, 63, rfl⟩
abbrev main_v18 : Ref sig .tc := ⟨.hbm, 64, rfl⟩

abbrev nD : Nat := 1
abbrev τ : Topo := Topo.v7x

variable {F : FTy → Type} [FloatOps F]

class Facts₀ : Prop where
  reducesTo_S4194304x5_S4194304_d1 : S4194304x5.ReducesTo [1] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x5_0_1 : S4194304x1.BroadcastsInDim S4194304x5 (![0, 1] : Fin 2 → Fin S4194304x5.rank)
  bcast_S_S4194304x1 : S_.BroadcastsInDim S4194304x1 (![] : Fin 0 → Fin S4194304x1.rank)
  shapeCasts_S4194304x1_S4194304x1x1 : S4194304x1.ShapeCasts S4194304x1x1
  bcast_S_S4194304x1x1 : S_.BroadcastsInDim S4194304x1x1 (![] : Fin 0 → Fin S4194304x1x1.rank)
  bcast_S1_S1x1x1_2 : S1.BroadcastsInDim S1x1x1 (![2] : Fin 1 → Fin S1x1x1.rank)
  bcast_S1x1x1_S4194304x1x1_0_1_2 : S1x1x1.BroadcastsInDim S4194304x1x1 (![0, 1, 2] : Fin 3 → Fin S4194304x1x1.rank)
  reducesTo_S4194304x1x1_S4194304x1_d2 : S4194304x1x1.ReducesTo [2] S4194304x1
  shapeCasts_S4194304x1_S4194304 : S4194304x1.ShapeCasts S4194304
  bcast_S_S5 : S_.BroadcastsInDim S5 (![] : Fin 0 → Fin S5.rank)
  reducesTo_S5_S_d0 : S5.ReducesTo [0] S_
  gather_S4194304x5_S4194304x1x1_S4194304x1_n_1_0_0_1_2_11_wf : GatherDims.WF S4194304x5 S4194304x1x1 S4194304x1 [] [1] [0] [1] [0] 2 ![1, 1]
  scatter_S5_S4194304x1_S4194304_n_0_0_1_wf : ScatterDims.WF S5 S4194304x1 S4194304 [] [0] [0] 1

variable [Facts₀]

def gather_S4194304x5_S4194304x1x1_S4194304x1_n_1_0_0_1_2_11 : GatherDims S4194304x5 S4194304x1x1 S4194304x1 where
  offsetDims := []
  collapsedSliceDims := [1]
  operandBatchingDims := [0]
  startIndicesBatchingDims := [0]
  startIndexMap := [1]
  indexVectorDim := 2
  sliceSizes := ![1, 1]
  wf := gather_S4194304x5_S4194304x1x1_S4194304x1_n_1_0_0_1_2_11_wf
def scatter_S5_S4194304x1_S4194304_n_0_0_1 : ScatterDims S5 S4194304x1 S4194304 where
  updateWindowDims := []
  insertedWindowDims := [0]
  scatterDimsToOperandDims := [0]
  indexVectorDim := 1
  wf := scatter_S5_S4194304x1_S4194304_n_0_0_1_wf

class Facts : Prop extends Facts₀ where

variable [Facts]
-- ==== Proof.KernelPieces.lean ====
/-
  What one grid point's body leaves in the two carried columns and in the output cell, as values.

  The body keeps two [5,1] columns across grid points — the per-class loss sums and the per-class counts — and
  writes the [1,1] output cell at every point. At the first point it stores zeros into both columns and reads them
  back; at every later point it reads what the point before left. In both cases:
    * the loss column ends at the loss payload of the point's logits block, its label row and the column's contents
      on entry (zeros at the first point);
    * the count column ends at the entry contents plus the count payload of the label row;
    * the output cell ends at the final payload of those two new columns.
-/
import proofs.«402154_j54606214202053_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A load of a whole buffer after stores of which the LAST covered the whole buffer reads that last store's value,
    whatever the earlier stores were. -/
theorem readCov_last_whole {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h inb]

/-! ## The first point: both columns zeroed, then updated -/

theorem loss_first (c : Dev nD) (i : grid0.Coords) (a1 : Memref sig .tc .vmem S5x65536 .f32) (h1 : a1.IsWhole) (a2 : Memref sig .tc .vmem S1x65536 .i32) (h2 : a2.IsWhole) (a3 : Memref sig .tc .vmem S1x1 .f32) (h3 : a3.IsWhole) (a4 : Memref sig .tc .vmem S5x1 .f32) (h4 : a4.IsWhole) (a5 : Memref sig .tc .vmem S5x1 .f32) (h5 : a5.IsWhole) (hc : cond0_0 i)
    (x0 : Vec F S5x65536 .f32) (x1 : Vec F S1x65536 .i32) :
    sout0_A_0 c i a1 h1 a2 h2 a3 h3 a4 h4 a5 h5 hc x0 x1 = k0_pay7 x0 x1 (k0_pay3 (F := F)) := by
  unfold sout0_A_0
  rw [View.read_writes_eq_canon _ _ _ (scover0_A_0 c i a1 h1 a2 h2 a3 h3 a4 h4 a5 h5 hc x0 x1)]
  unfold kernelRun0_A
  dsimp only
  sl_unfold_words
  rw [View.canon_cons_unit_zero (S := S5x1) hz, View.readCov_unit_zero (S := S5x1) _ hz]
  simp only [View.readAt_eq_ld, h1.read_unread, h2.read_unread, View.ld_unit_zero (S := S5x65536) hz,
    View.ld_unit_zero (S := S1x65536) hz]

theorem count_first (c : Dev nD) (i : grid0.Coords) (a1 : Memref sig .tc .vmem S5x65536 .f32) (h1 : a1.IsWhole) (a2 : Memref sig .tc .vmem S1x65536 .i32) (h2 : a2.IsWhole) (a3 : Memref sig .tc .vmem S1x1 .f32) (h3 : a3.IsWhole) (a4 : Memref sig .tc .vmem S5x1 .f32) (h4 : a4.IsWhole) (a5 : Memref sig .tc .vmem S5x1 .f32) (h5 : a5.IsWhole) (hc : cond0_0 i)
    (x0 : Vec F S5x65536 .f32) (x1 : Vec F S1x65536 .i32) :
    sout0_A_1 c i a1 h1 a2 h2 a3 h3 a4 h4 a5 h5 hc x0 x1 = k0_pay1 (k0_pay6 x1) (k0_pay4 (F := F)) := by
  unfold sout0_A_1
  rw [View.read_writes_eq_canon _ _ _ (scover0_A_1 c i a1 h1 a2 h2 a3 h3 a4 h4 a5 h5 hc x0 x1)]
  unfold kernelRun0_A
  dsimp only
  sl_unfold_words
  rw [View.canon_cons_unit_zero (S := S5x1) hz, View.readCov_unit_zero (S := S5x1) _ hz]
  simp only [View.readAt_eq_ld, h2.read_unread, View.ld_unit_zero (S := S1x65536) hz]

theorem cell_first (c : Dev nD) (i : grid0.Coords) (a1 : Memref sig .tc .vmem S5x65536 .f32) (h1 : a1.IsWhole) (a2 : Memref sig .tc .vmem S1x65536 .i32) (h2 : a2.IsWhole) (a3 : Memref sig .tc .vmem S1x1 .f32) (h3 : a3.IsWhole) (a4 : Memref sig .tc .vmem S5x1 .f32) (h4 : a4.IsWhole) (a5 : Memref sig .tc .vmem S5x1 .f32) (h5 : a5.IsWhole) (hc : cond0_0 i)
    (x0 : Vec F S5x65536 .f32) (x1 : Vec F S1x65536 .i32) :
    out0_A_2 c i a1 h1 a2 h2 a3 h3 a4 h4 a5 h5 hc x0 x1
      = k0_pay2 (k0_pay7 x0 x1 (k0_pay3 (F := F))) (k0_pay1 (k0_pay6 x1) (k0_pay4 (F := F))) := by
  unfold out0_A_2
  rw [View.read_writes_eq_canon _ _ _ (cover0_A_2 c i a1 h1 a2 h2 a3 h3 a4 h4 a5 h5 hc x0 x1)]
  unfold kernelRun0_A
  dsimp only
  sl_unfold_words
  rw [View.canon_unit_zero (S := S1x1) hz]
  repeat rw [readCov_last_whole (S := S5x1) _ hz]
  simp only [View.readAt_eq_ld, h1.read_unread, h2.read_unread, View.ld_unit_zero (S := S5x65536) hz,
    View.ld_unit_zero (S := S1x65536) hz]

/-! ## A later point: both columns read as the point before left them, then updated -/

theorem loss_later (c : Dev nD) (i : grid0.Coords) (a1 : Memref sig .tc .vmem S5x65536 .f32) (h1 : a1.IsWhole) (a2 : Memref sig .tc .vmem S1x65536 .i32) (h2 : a2.IsWhole) (a3 : Memref sig .tc .vmem S1x1 .f32) (h3 : a3.IsWhole) (a4 : Memref sig .tc .vmem S5x1 .f32) (h4 : a4.IsWhole) (a5 : Memref sig .tc .vmem S5x1 .f32) (h5 : a5.IsWhole) (hc : ¬cond0_0 i)
    (x0 : Vec F S5x65536 .f32) (x1 : Vec F S1x65536 .i32) (xs0 xs1 : Vec F S5x1 .f32) :
    sout0_B_0 c i a1 h1 a2 h2 a3 h3 a4 h4 a5 h5 hc x0 x1 xs0 xs1 = k0_pay7 x0 x1 xs0 := by
  unfold sout0_B_0
  rw [View.read_writes_eq_canon _ _ _ (scover0_B_0 c i a1 h1 a2 h2 a3 h3 a4 h4 a5 h5 hc x0 x1 xs0 xs1)]
  unfold kernelRun0_B
  dsimp only
  sl_unfold_words
  rw [View.canon_unit_zero (S := S5x1) hz]
  simp only [View.readAt_eq_ld, h1.read_unread, h2.read_unread, h4.read_unread, View.ld_unit_zero (S := S5x65536) hz,
    View.ld_unit_zero (S := S1x65536) hz, View.ld_unit_zero (S := S5x1) hz]

theorem count_later (c : Dev nD) (i : grid0.Coords) (a1 : Memref sig .tc .vmem S5x65536 .f32) (h1 : a1.IsWhole) (a2 : Memref sig .tc .vmem S1x65536 .i32) (h2 : a2.IsWhole) (a3 : Memref sig .tc .vmem S1x1 .f32) (h3 : a3.IsWhole) (a4 : Memref sig .tc .vmem S5x1 .f32) (h4 : a4.IsWhole) (a5 : Memref sig .tc .vmem S5x1 .f32) (h5 : a5.IsWhole) (hc : ¬cond0_0 i)
    (x0 : Vec F S5x65536 .f32) (x1 : Vec F S1x65536 .i32) (xs0 xs1 : Vec F S5x1 .f32) :
    sout0_B_1 c i a1 h1 a2 h2 a3 h3 a4 h4 a5 h5 hc x0 x1 xs0 xs1 = k0_pay1 (k0_pay6 x1) xs1 := by
  unfold sout0_B_1
  rw [View.read_writes_eq_canon _ _ _ (scover0_B_1 c i a1 h1 a2 h2 a3 h3 a4 h4 a5 h5 hc x0 x1 xs0 xs1)]
  unfold kernelRun0_B
  dsimp only
  sl_unfold_words
  rw [View.canon_unit_zero (S := S5x1) hz]
  simp only [View.readAt_eq_ld, h2.read_unread, h5.read_unread, View.ld_unit_zero (S := S1x65536) hz,
    View.ld_unit_zero (S := S5x1) hz]

theorem cell_later (c : Dev nD) (i : grid0.Coords) (a1 : Memref sig .tc .vmem S5x65536 .f32) (h1 : a1.IsWhole) (a2 : Memref sig .tc .vmem S1x65536 .i32) (h2 : a2.IsWhole) (a3 : Memref sig .tc .vmem S1x1 .f32) (h3 : a3.IsWhole) (a4 : Memref sig .tc .vmem S5x1 .f32) (h4 : a4.IsWhole) (a5 : Memref sig .tc .vmem S5x1 .f32) (h5 : a5.IsWhole) (hc : ¬cond0_0 i)
    (x0 : Vec F S5x65536 .f32) (x1 : Vec F S1x65536 .i32) (xs0 xs1 : Vec F S5x1 .f32) :
    out0_B_2 c i a1 h1 a2 h2 a3 h3 a4 h4 a5 h5 hc x0 x1 xs0 xs1 = k0_pay2 (k0_pay7 x0 x1 xs0) (k0_pay1 (k0_pay6 x1) xs1) := by
  unfold out0_B_2
  rw [View.read_writes_eq_canon _ _ _ (cover0_B_2 c i a1 h1 a2 h2 a3 h3 a4 h4 a5 h5 hc x0 x1 xs0 xs1)]
  unfold kernelRun0_B
  dsimp only
  sl_unfold_words
  rw [View.canon_unit_zero (S := S1x1) hz]
  repeat rw [readCov_last_whole (S := S5x1) _ hz]
  simp only [View.readAt_eq_ld, h1.read_unread, h2.read_unread, h4.read_unread, h5.read_unread,
    View.ld_unit_zero (S := S5x65536) hz, View.ld_unit_zero (S := S1x65536) hz, View.ld_unit_zero (S := S5x1) hz]

end Cert.KernelIdeal.Pieces

end
-- ==== Proof.KernelValue.lean ====
/-
  The kernel program's run, read as values (at any float family).

  Across the 64 grid points the body carries two [5,1] columns: `lossCol n`, the loss payload folded over the logits
  blocks and label rows of points 0 … n from zeros, and `countCol n`, the count payload added up over the label rows of
  points 0 … n from zeros. After point `n` the output cell holds the final payload of the two columns (by induction on the
  point, never by enumerating the grid). Only the last point writes the cell back, and the cell's one block is the whole
  [1,1] result array; the host then re-shapes it to the scalar result. A logits block at point `b` is the transposed
  logits at rows `65536·b …`, a label row the labels there.
-/
import proofs.«402154_j54606214202053_1_alg».proof.Proof.KernelPieces
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Pieces

variable {F : FTy → Type} [FloatOps F]
variable (m : (ℓ : Loc nD τ sig) → Buf (Elt F) ℓ) (ρ : Dev nD → PrngReg)

/-- Point `t`'s logits block (class-major) and label row, at their literal types. -/
abbrev xblk (c : Dev nD) (t : Fin cfg0.N) : Vec F S5x65536 .f32 := iblk m c 0 t
abbrev tblk (c : Dev nD) (t : Fin cfg0.N) : Vec F S1x65536 .i32 := iblk m c 1 t

/-- The loss column after point `n`. -/
def lossCol (c : Dev nD) : (n : ℕ) → n < cfg0.N → Vec F S5x1 .f32
  | 0, h => k0_pay7 (xblk m c ⟨0, h⟩) (tblk m c ⟨0, h⟩) (k0_pay3 (F := F))
  | n + 1, h => k0_pay7 (xblk m c ⟨n + 1, h⟩) (tblk m c ⟨n + 1, h⟩) (lossCol c n (Nat.lt_of_succ_lt h))

/-- The count column after point `n`. -/
def countCol (c : Dev nD) : (n : ℕ) → n < cfg0.N → Vec F S5x1 .f32
  | 0, h => k0_pay1 (k0_pay6 (tblk m c ⟨0, h⟩)) (k0_pay4 (F := F))
  | n + 1, h => k0_pay1 (k0_pay6 (tblk m c ⟨n + 1, h⟩)) (countCol c n (Nat.lt_of_succ_lt h))

/-- After point `n`: the output cell at the final payload of the two columns, and the two columns. -/
theorem outsAt_eq (c : Dev nD) : ∀ (n : ℕ) (h : n < cfg0.N),
    outsAt0 m c n h = (k0_pay2 (lossCol m c n h) (countCol m c n h), lossCol m c n h, countCol m c n h)
  | 0, h => by
    rw [outsAt0_A m c ⟨0, h⟩ rfl, cell_first, loss_first, count_first]
    rfl
  | n + 1, h => by
    have hN : cfg0.N = 64 := N_0
    have hB : ¬(⟨n + 1, h⟩ : Fin cfg0.N).val % 64 = 0 := by dsimp only; omega
    rw [outsAt0_B m c ⟨n + 1, h⟩ hB, cell_later, loss_later, count_later]
    show (k0_pay2 (k0_pay7 _ _ (outsAt0 m c n _).2.1) (k0_pay1 (k0_pay6 _) (outsAt0 m c n _).2.2),
        k0_pay7 _ _ (outsAt0 m c n _).2.1, k0_pay1 (k0_pay6 _) (outsAt0 m c n _).2.2) = _
    rw [outsAt_eq c n]
    rfl

/-- The last grid point. -/
abbrev lastPt : Fin cfg0.N := ⟨63, by rw [show cfg0.N = 64 from N_0]; decide⟩

/-- The output cell after the last point. -/
abbrev cell (c : Dev nD) : Vec F S1x1 .f32 := k0_pay2 (lossCol m c 63 lastPt.isLt) (countCol m c 63 lastPt.isLt)

/-- The one write-back, at the last point, writes the cell: block (0, 0) of the [1,1] array read through zero offsets
    is the array. -/
theorem flushed_eq (c : Dev nD) (t : Fin cfg0.N) (hf : (cfg0.win 2).flush t = true) :
    (dats m 0 c).flushed 2 t = ((cfg0.win 2).blk t).view.read (Elt F) (cell m c) := by
  have hN : cfg0.N = 64 := N_0
  have h3 : t.val = 63 := by have := (flush0_2 t).mp hf; have := t.isLt; omega
  obtain rfl : t = lastPt := Fin.ext h3
  show (cfg0.win 2).cut (grid0.coords lastPt) ((dats m 0 c).after 2 lastPt) = _
  rw [after0_2, outsAt_eq]
  have hz' : (fun a => win0_2.index lastPt a * main_v2.ty.shape.size a) = fun _ => 0 := funext fun a => by fin_cases a <;> decide
  exact (Memref.read_access_unit_zero (Elt F) main_v2 hz' (fun a => by rw [congrFun hz' a]; simp) (cell m c)).symm

/-- So the result array of the region ends holding the cell after the last point. -/
theorem final_cell (c : Dev nD) : (dats m 0 c).arrAt 2 cfg0.N = cell m c :=
  (dats m 0 c).arrAt_eq_of_cover 2 (cell m c) (flushed_eq m c) fun i =>
    ⟨lastPt, (flush0_2 lastPt).mpr (by decide), by
      show i ∈ ((View.whole main_v2).slice (win0_2.rect lastPt)).set
      rw [View.set_slice_whole, Rect.mem_set_unit]
      intro a
      have h0 : (i 0 : Nat) < 1 := (i 0).isLt
      have h1 : (i 1 : Nat) < 1 := (i 1).isLt
      match a with
      | ⟨0, _⟩ => show win0_2.index lastPt 0 * win0_2.size 0 ≤ (i 0 : Nat) ∧ (i 0 : Nat) < win0_2.index lastPt 0 * win0_2.size 0 + win0_2.xsize (grid0.coords lastPt) 0
                  rw [show win0_2.index lastPt 0 * win0_2.size 0 = 0 from by decide +kernel, show win0_2.xsize (grid0.coords lastPt) 0 = 1 from by decide +kernel]; omega
      | ⟨1, _⟩ => show win0_2.index lastPt 1 * win0_2.size 1 ≤ (i 1 : Nat) ∧ (i 1 : Nat) < win0_2.index lastPt 1 * win0_2.size 1 + win0_2.xsize (grid0.coords lastPt) 1
                  rw [show win0_2.index lastPt 1 * win0_2.size 1 = 0 from by decide +kernel, show win0_2.xsize (grid0.coords lastPt) 1 = 1 from by decide +kernel]; omega⟩

/-- The scalar result: the cell re-shaped. -/
abbrev result (c : Dev nD) : Buf (Elt F) ((c.tc : Thread nD τ).loc main_v3) :=
  shapeCast S_ (cell m c) shapeCasts_S1x1_S_

/-- The host operation after the region leaves the result buffer at the re-shaped cell. -/
theorem tail_eq (c : Dev nD) :
    Pipeline.afterTail₀ cfgs (dats m) 0 (V0 m) [hostOps1] c main_v3 = result m c := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = cell m c :=
    (Pipeline.withArrays_arr spec0 launch0.win.arr_inj c (V0 m c) (fun w => (dats m 0 c).arrAt w cfg0.N) 2).trans (final_cell m c)
  rw [e]
  rfl

/-- The run, read: the scalar result at the re-shaped cell, the arguments unchanged. -/
theorem run : θ_run defs (onTc (τ := τ) (main (F := F))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

/-! ## The blocks, read off the arguments -/

/-- The region finds the logits transposed (class-major) and the labels as one row. -/
theorem V_logits (c : Dev nD) :
    (V m c main_v0 : Vec F S5x4194304 .f32)
      = transpose S5x4194304 [1, 0] (m ((c.tc : Thread nD τ).loc main_arg0)) transposes_S4194304x5_S5x4194304_1_0 := by
  show StableHlo.after hostOps0 (fun b => m (c, b)) (Proc.devRef .tc main_v0) = _
  after_results

theorem V_labels (c : Dev nD) :
    (V m c main_v1 : Vec F S1x4194304 .i32)
      = shapeCast S1x4194304 (m ((c.tc : Thread nD τ).loc main_arg1)) shapeCasts_S4194304_S1x4194304 := by
  show StableHlo.after hostOps0 (fun b => m (c, b)) (Proc.devRef .tc main_v1) = _
  after_results
  rfl

/-- Both input windows step along the long axis: block `t` starts at `65536 · t`. -/
theorem idx_logits : ∀ t : Fin cfg0.N, win0_0.index t 0 = 0 ∧ win0_0.index t 1 = t.val :=
  (by decide +kernel : ∀ t : Fin grid0.N, win0_0.index t 0 = 0 ∧ win0_0.index t 1 = t.val)
theorem idx_labels : ∀ t : Fin cfg0.N, win0_1.index t 0 = 0 ∧ win0_1.index t 1 = t.val :=
  (by decide +kernel : ∀ t : Fin grid0.N, win0_1.index t 0 = 0 ∧ win0_1.index t 1 = t.val)

/-- Point `t`'s logits block at class `k`, lane `q`, is the logit of row `65536 · t + q` at class `k`. -/
theorem xblk_apply (c : Dev nD) (t : Fin cfg0.N) (k : Fin 5) (q : Fin 65536) (hlt : t.val * 65536 + q.val < 4194304) :
    xblk m c t (ix2 k q) = m ((c.tc : Thread nD τ).loc main_arg0) (ix2 ⟨t.val * 65536 + q.val, hlt⟩ k) := by
  show ((cfg0.win 0).blk t).view.read (Elt F) (V m c (Pipeline.arrRef spec0 0)) (ix2 k q) = _
  rw [View.read_apply]
  refine (congrFun (V_logits m c) _).trans ?_
  refine transpose_apply [1, 0] _ transposes_S4194304x5_S5x4194304_1_0 _ (ix2 ⟨t.val * 65536 + q.val, hlt⟩ k) (fun b => ?_)
  match b with
  | ⟨0, _⟩ =>
    show k.val = win0_0.index t 0 * 5 + 1 * k.val
    rw [(idx_logits t).1]; omega
  | ⟨1, _⟩ =>
    show t.val * 65536 + q.val = win0_0.index t 1 * 65536 + 1 * q.val
    rw [(idx_logits t).2]; omega

/-- Point `t`'s label row at lane `q` is the label of row `65536 · t + q`. -/
theorem tblk_apply (c : Dev nD) (t : Fin cfg0.N) (q : Fin 65536) (hlt : t.val * 65536 + q.val < 4194304) :
    tblk m c t (ix2 0 q) = m ((c.tc : Thread nD τ).loc main_arg1) (ix1 ⟨t.val * 65536 + q.val, hlt⟩) := by
  show ((cfg0.win 1).blk t).view.read (Elt F) (V m c (Pipeline.arrRef spec0 1)) (ix2 0 q) = _
  rw [View.read_apply]
  refine (congrFun (V_labels m c) _).trans ?_
  refine shapeCast_apply _ shapeCasts_S4194304_S1x4194304 _ (ix1 ⟨t.val * 65536 + q.val, hlt⟩) ?_
  rw [Shape.rowMajor_val_one, Shape.rowMajor_val_two]
  show t.val * 65536 + q.val = (win0_1.index t 0 * 1 + 1 * 0) * 4194304 + (win0_1.index t 1 * 65536 + 1 * q.val)
  rw [(idx_labels t).1, (idx_labels t).2]; omega

end Cert.KernelIdeal.KValue

end
-- ==== Proof.Spec.lean ====
/-
  Mean-false-error loss, as one function of the logits and the labels, over the extended reals.

  For logits `x n c` (row `n`, class `c`, five classes) and labels `t n` (32-bit words):
    * `rowMax x n`      the largest of row `n`'s five logits (a fold of `max` from `-∞`);
    * `lsm x n c`       the log-softmax `(x n c − M) − log (∑ₖ exp (x n k − M))`, `M` the row's maximum;
    * a row HITS class `c` when its label word is the word of `c`; a label that is the word of no class hits nothing;
    * `lossSum x t c`   the sum of `−lsm x n c` over the rows that hit `c`;  `cnt t c` the number of such rows;
    * `mfe x t`         the sum over the classes that some row hits of `lossSum / max cnt 1`.
  Below the definitions: the algebra that turns a one-hot-weighted form of the per-row term into the `if` above, a sum
  over all rows into a sum over equal blocks of rows, and a left-nested chain of block sums into the sum over blocks.
-/
import Idealize.ShloMosaic.PureOps.Ideal
import Idealize.ShloMosaic.PureOps.Ideal.Laws
import Idealize.ShloMosaic.Lib.ValueIdx
import Mathlib.Algebra.BigOperators.Fin
import Mathlib.Algebra.BigOperators.Group.Finset.Sigma

noncomputable section

namespace Cert.MFE

open Idealize.ShloMosaic

/-- The pattern of `-∞`, of `0.0` and of `1.0`, as extended reals. -/
abbrev negInf : EReal := Ideal.ofBits .f32 0xFF800000#32
abbrev zero : EReal := Ideal.ofBits .f32 0x00000000#32
abbrev one : EReal := Ideal.ofBits .f32 0x3F800000#32

theorem zero_eq : zero = 0 := Ideal.ofBits_zero_f32

/-- The largest logit of row `n`. -/
def rowMax {N : Nat} (x : Fin N → Fin 5 → EReal) (n : Fin N) : EReal :=
  (Finset.univ : Finset (Fin 5)).fold max negInf (fun k => x n k)

/-- The sum of the exponentials of row `n`'s logits, each less the row's maximum. -/
def rowExpSum {N : Nat} (x : Fin N → Fin 5 → EReal) (n : Fin N) : EReal :=
  ∑ k : Fin 5, Ideal.exp (x n k - rowMax x n)

/-- The log-softmax of row `n` at class `c`. -/
def lsm {N : Nat} (x : Fin N → Fin 5 → EReal) (n : Fin N) (c : Fin 5) : EReal :=
  (x n c - rowMax x n) - Ideal.log (rowExpSum x n)

/-- The word of class `c`. -/
abbrev cls (c : Fin 5) : BitVec 32 := BitVec.ofNat 32 c.val

/-- Row `n`'s loss term for class `c`: the negated log-softmax at `c` when the row's label is `c`, else nothing. -/
def term {N : Nat} (x : Fin N → Fin 5 → EReal) (t : Fin N → BitVec 32) (c : Fin 5) (n : Fin N) : EReal :=
  if t n = cls c then -(lsm x n c) else 0

/-- Row `n`'s count term for class `c`. -/
def unit {N : Nat} (t : Fin N → BitVec 32) (c : Fin 5) (n : Fin N) : EReal :=
  if t n = cls c then 1 else 0

/-- The loss summed over the rows labelled `c`, and how many they are. -/
def lossSum {N : Nat} (x : Fin N → Fin 5 → EReal) (t : Fin N → BitVec 32) (c : Fin 5) : EReal := ∑ n : Fin N, term x t c n
def cnt {N : Nat} (t : Fin N → BitVec 32) (c : Fin 5) : EReal := ∑ n : Fin N, unit t c n

/-- From the per-class sums and counts: the mean over each class that is present, summed over the classes. -/
def tail (L C : Fin 5 → EReal) : EReal :=
  ∑ k : Fin 5, Scalar.select (Ideal.cmp .ogt (C k) zero) (Ideal.div (L k) (max (C k) one)) zero

/-- The loss. -/
def mfe {N : Nat} (x : Fin N → Fin 5 → EReal) (t : Fin N → BitVec 32) : EReal := tail (lossSum x t) (cnt t)

/-! ## The one-hot form of a row's term -/

/-- Distinct classes have distinct words. -/
theorem cls_injective : Function.Injective cls := by
  intro a b h
  have := congrArg BitVec.toNat h
  simp only [cls, BitVec.toNat_ofNat] at this
  have ha := a.isLt; have hb := b.isLt
  apply Fin.ext
  omega

/-- The one-hot weight of class `k` under label word `w`. -/
def hot (w : BitVec 32) (k : Fin 5) : EReal := if cls k = w then 1 else 0

/-- A one-hot-weighted sum of a row picks the labelled entry, negates it, and the second weight keeps it for the labelled
    class only: `(0 − ∑ₖ lₖ · hotₖ) · hot_c` is `−l_c` when the label is `c` and `0` otherwise — for ANY extended reals
    `l`, the infinities included (only `a · 1 = a`, `a · 0 = 0`, `0 + a = a`, `0 − a = −a` are used). -/
theorem onehot_term (l : Fin 5 → EReal) (w : BitVec 32) (c : Fin 5) :
    (0 - ∑ k : Fin 5, l k * hot w k) * hot w c = if w = cls c then -(l c) else 0 := by
  by_cases h : w = cls c
  · subst h
    have hs : ∑ k : Fin 5, l k * hot (cls c) k = l c := by
      rw [Finset.sum_eq_single c]
      · simp [hot]
      · intro b _ hb
        have : cls b ≠ cls c := fun e => hb (cls_injective e)
        simp [hot, this]
      · intro h; exact absurd (Finset.mem_univ c) h
    rw [hs, if_pos rfl, zero_sub]
    simp [hot]
  · rw [if_neg h]
    have : cls c ≠ w := fun e => h e.symm
    simp [hot, this]

/-! ## Rows in blocks -/

/-- Row `b · B + q` of `A · B` rows. -/
def blockRow {A B : Nat} (b : Fin A) (q : Fin B) : Fin (A * B) :=
  ⟨b.val * B + q.val, by
    have hb := b.isLt; have hq := q.isLt
    calc b.val * B + q.val < b.val * B + B := by omega
      _ = (b.val + 1) * B := by ring
      _ ≤ A * B := Nat.mul_le_mul_right B hb⟩

/-- A sum over `A · B` rows is the sum over the `A` blocks of the sums over each block's `B` rows. -/
theorem sum_blocks {A B : Nat} (f : Fin (A * B) → EReal) :
    ∑ n : Fin (A * B), f n = ∑ b : Fin A, ∑ q : Fin B, f (blockRow b q) := by
  rw [← Finset.sum_product', Finset.univ_product_univ]
  refine (Fintype.sum_equiv finProdFinEquiv _ _ (fun p => ?_)).symm
  congr 1
  apply Fin.ext
  simp only [blockRow, finProdFinEquiv_apply_val]
  ring

/-- A left-nested chain `((0 + p₀) + p₁) + … + pₙ` is the sum of its `n + 1` terms. -/
def chain (p : Nat → EReal) : Nat → EReal
  | 0 => 0 + p 0
  | n + 1 => chain p n + p (n + 1)

theorem chain_eq_sum (p : Nat → EReal) (n : Nat) : chain p n = ∑ i ∈ Finset.range (n + 1), p i := by
  induction n with
  | zero => simp [chain]
  | succ n ih => rw [chain, ih, Finset.sum_range_succ (n := n + 1)]

end Cert.MFE

end
-- ==== Proof.KernelPay.lean ====
/-
  The kernel body's arithmetic, read at an index, at the extended reals. For one block of 65536 rows held class-major
  (`x0 (k, q)` the logit of the block's row `q` at class `k`, `x1 (0, q)` that row's label word):
    * the count payload at class `c` is the number of the block's rows labelled `c`;
    * the final payload is the specification's `tail` of the two carried columns.
-/
import proofs.«402154_j54606214202053_1_alg».proof.Proof.Gen.KernelIdeal.Skeleton
import proofs.«402154_j54606214202053_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-- A class-major block as rows of five, and its label row as a row-indexed family of words. -/
abbrev brows (x0 : Vec Ideal S5x65536 .f32) : Fin 65536 → Fin 5 → EReal := fun q k => x0 (ix2 k q)
abbrev blabels (x1 : Vec Ideal S1x65536 .i32) : Fin 65536 → BitVec 32 := fun q => x1 (ix2 0 q)

theorem pay3_apply (j : S5x1.Idx) : k0_pay3 (F := Ideal) j = Cert.MFE.zero := by
  unfold k0_pay3
  rw [shapeCast_self]
  rfl

theorem pay4_apply (j : S5x1.Idx) : k0_pay4 (F := Ideal) j = Cert.MFE.zero := by
  unfold k0_pay4
  rw [shapeCast_self]
  rfl

theorem pay1_apply (v32 : FVec Ideal S5x1 .f32) (v38 : Vec Ideal S5x1 .f32) (j : S5x1.Idx) :
    k0_pay1 (F := Ideal) v32 v38 j = v38 j + v32 j := by
  unfold k0_pay1
  rw [shapeCast_self]
  rfl

/-- The bit of a word equality, widened to a word and read as a signed integer, is one when the two words are equal and
    zero when they are not. -/
theorem eqBit_real (a b : BitVec 32) :
    (((((IntOp.cmpi .eq a b).setWidth 32).toInt : ℤ) : ℝ) : EReal) = if a = b then 1 else 0 := by
  by_cases h : a = b
  · have e : IntOp.cmpi .eq a b = 1#1 := by
      unfold IntOp.cmpi; rw [h]; simp
    rw [if_pos h, e]
    have : ((1#1 : BitVec 1).setWidth 32).toInt = 1 := by decide
    rw [this]; norm_num
  · have e : IntOp.cmpi .eq a b = 0#1 := by
      unfold IntOp.cmpi
      have : (a == b) = false := by simpa using h
      rw [this]; rfl
    rw [if_neg h, e]
    have : ((0#1 : BitVec 1).setWidth 32).toInt = 0 := by decide
    rw [this]; norm_num

/-- The one-hot array of a block: at class `k` and row `q` it is the one-hot weight of `k` under row `q`'s label word
    (the class counter along the five rows against the label row repeated down them). -/
theorem pay5_apply (x1 : Vec Ideal S1x65536 .i32) (k : Fin 5) (q : Fin 65536) :
    k0_pay5 (F := Ideal) x1 (ix2 k q) = Cert.MFE.hot (x1 (ix2 0 q)) k := by
  unfold k0_pay5
  rw [shapeCast_self]
  have hi : iota .tc S5x65536 32 [0] iota_S5x65536_d0_w32 (ix2 k q) = BitVec.ofNat 32 k.val :=
    iota_single_apply .tc S5x65536 32 0 _ (ix2 k q)
  have hb : broadcastTo S5x65536 x1 broadcasts_S1x65536_S5x65536 (ix2 k q) = x1 (ix2 0 q) :=
    broadcastTo_apply x1 _ (ix2 k q) (ix2 0 q) (fun a => match a with | ⟨0, _⟩ => rfl | ⟨1, _⟩ => rfl)
  show (((((IntOp.cmpi .eq (iota .tc S5x65536 32 [0] iota_S5x65536_d0_w32 (ix2 k q))
      (broadcastTo S5x65536 x1 broadcasts_S1x65536_S5x65536 (ix2 k q))).setWidth 32).toInt : ℤ) : ℝ) : EReal) = _
  rw [hi, hb, eqBit_real]
  rfl

/-- Summing a [5, 65536] array along its rows of 65536: the entry inserted at class `c` and position `q` is `(c, q)`. -/
theorem lift_lane (c : Fin 5) (q : Fin 65536) :
    (reduces_S5x65536_S5 : S5x65536.Reduces [1] S5).lift (ix1 c) q = ix2 c q := by
  funext a
  apply Fin.ext
  match a with
  | ⟨0, _⟩ => rfl
  | ⟨1, _⟩ => rfl

theorem pay6_apply (x1 : Vec Ideal S1x65536 .i32) (c : Fin 5) :
    k0_pay6 (F := Ideal) x1 (ix2 c 0) = ∑ q : Fin 65536, Cert.MFE.unit (blabels x1) c q := by
  unfold k0_pay6
  refine (shapeCast_apply _ shapeCasts_S5_S5x1 (ix2 c 0) (ix1 c) ?_).trans ?_
  · rw [Shape.rowMajor_val_one, Shape.rowMajor_val_two]
    show c.val = c.val * 1 + 0
    omega
  refine (Ideal.multiReduction_add_single _ _ reduces_S5x65536_S5 _ _ (ix1 c)).trans ?_
  show ∑ q : Fin 65536, k0_pay5 (F := Ideal) x1 ((reduces_S5x65536_S5 : S5x65536.Reduces [1] S5).lift (ix1 c) q) = _
  refine Finset.sum_congr rfl (fun q _ => ?_)
  rw [lift_lane, pay5_apply]
  unfold Cert.MFE.hot Cert.MFE.unit
  by_cases h : x1 (ix2 0 q) = Cert.MFE.cls c
  · rw [if_pos h, if_pos h.symm]
  · rw [if_neg h, if_neg (fun e => h e.symm)]

/-- Summing a [5, 1] column along its five rows: the entry inserted at row `k` is `(k, 0)`. -/
theorem lift_row (k : Fin 5) :
    (reduces_S5x1_S1 : S5x1.Reduces [0] S1).lift (ix1 0) k = ix2 k 0 := by
  funext a
  apply Fin.ext
  match a with
  | ⟨0, _⟩ => rfl
  | ⟨1, _⟩ => rfl

theorem pay2_apply (v43 v44 : Vec Ideal S5x1 .f32) (j : S1x1.Idx) :
    k0_pay2 (F := Ideal) v43 v44 j = Cert.MFE.tail (fun k => v43 (ix2 k 0)) (fun k => v44 (ix2 k 0)) := by
  have hj : j = ix2 0 0 := by
    funext a
    match a with
    | ⟨0, _⟩ => exact Fin.ext (by have := idx2_lt0 j; show (j 0).val = 0; omega)
    | ⟨1, _⟩ => exact Fin.ext (by have := idx2_lt1 j; show (j 1).val = 0; omega)
  subst hj
  unfold k0_pay2
  refine (shapeCast_apply _ shapeCasts_S1_S1x1 (ix2 0 0) (ix1 0) ?_).trans ?_
  · rw [Shape.rowMajor_val_one, Shape.rowMajor_val_two]
    rfl
  refine (Ideal.multiReduction_add_single _ _ reduces_S5x1_S1 _ _ (ix1 0)).trans ?_
  unfold Cert.MFE.tail
  refine Finset.sum_congr rfl (fun (k : Fin 5) _ => ?_)
  rw [lift_row k]
  rfl

end Cert.KernelIdeal.Pay

end
-- ==== Proof.KernelPay7.lean ====
/-
  The kernel body's loss payload, read at class `c`, at the extended reals. For one block of 65536 rows held class-major
  (`x0 (k, q)` the logit of the block's row `q` at class `k`, `x1 (0, q)` that row's label word) it is the carried sum
  at `c` plus, over the block's rows, each row's loss term for `c`: the negated log-softmax at `c` when the row's label
  is the word of `c`, nothing otherwise.
-/
import proofs.«402154_j54606214202053_1_alg».proof.Proof.Gen.KernelIdeal.Skeleton
import proofs.«402154_j54606214202053_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay7

open Idealize.ShloMosaic Idealize.ShloMosaic.ValueIdx Cert.KernelIdeal Cert.KernelIdeal.Gen

/-- A class-major block as rows of five, and its label row as a row-indexed family of words. -/
abbrev brows (x0 : Vec Ideal S5x65536 .f32) : Fin 65536 → Fin 5 → EReal := fun q k => x0 (ix2 k q)
abbrev blabels (x1 : Vec Ideal S1x65536 .i32) : Fin 65536 → BitVec 32 := fun q => x1 (ix2 0 q)

section Layout
variable {α : Type}

/-- The block index over lane `q` with class `k` put on the class axis is `(k, q)`. -/
theorem lift0 (h : S5x65536.Reduces [0] S65536) (q : Fin 65536) (k : Fin 5) :
    h.lift (ix1 q) k = ix2 k q := by
  funext c
  apply Fin.ext
  match c with
  | ⟨0, _⟩ => rfl
  | ⟨1, _⟩ => rfl

/-- The block index over class `c` with lane `q` put on the lane axis is `(c, q)`. -/
theorem lift1 (h : S5x65536.Reduces [1] S5) (c : Fin 5) (q : Fin 65536) :
    h.lift (ix1 c) q = ix2 c q := by
  funext a
  apply Fin.ext
  match a with
  | ⟨0, _⟩ => rfl
  | ⟨1, _⟩ => rfl

/-- A lane-indexed vector laid as one row reads, at `(0, q)`, its entry `q`. -/
theorem row_apply (v : S65536.Idx → α) (h : S65536.ShapeCasts S1x65536) (q : Fin 65536) :
    shapeCast S1x65536 v h (ix2 0 q) = v (ix1 q) := by
  refine shapeCast_apply v h (ix2 0 q) (ix1 q) ?_
  rw [Shape.rowMajor_val_two, Shape.rowMajor_val_one]
  show q.val = (0 : Fin 1).val * 65536 + q.val
  simp

/-- A class-indexed vector laid as one column reads, at `(c, 0)`, its entry `c`. -/
theorem col_apply (v : S5.Idx → α) (h : S5.ShapeCasts S5x1) (c : Fin 5) :
    shapeCast S5x1 v h (ix2 c 0) = v (ix1 c) := by
  refine shapeCast_apply v h (ix2 c 0) (ix1 c) ?_
  rw [Shape.rowMajor_val_two, Shape.rowMajor_val_one]
  show c.val = c.val * 1 + (0 : Fin 1).val
  simp

/-- A row repeated down the five classes reads, at `(k, q)`, the row at `(0, q)`. -/
theorem down_apply (v : S1x65536.Idx → α) (h : S1x65536.Broadcasts S5x65536) (k : Fin 5) (q : Fin 65536) :
    broadcastTo S5x65536 v h (ix2 k q) = v (ix2 0 q) := by
  refine broadcastTo_apply v h (ix2 k q) (ix2 0 q) ?_
  intro a
  match a with
  | ⟨0, _⟩ => rfl
  | ⟨1, _⟩ => rfl

end Layout

/-- A compared pair of words, widened and converted, is the one-hot weight: the class's word against the label. -/
theorem word_hot (w : BitVec 32) (k : Fin 5) :
    (((((IntOp.cmpi .eq (BitVec.ofNat 32 k.val) w).setWidth 32).toInt : ℝ)) : EReal) = Cert.MFE.hot w k := by
  unfold Cert.MFE.hot
  by_cases h : BitVec.ofNat 32 k.val = w
  · rw [if_pos h]
    have e : IntOp.cmpi .eq (BitVec.ofNat 32 k.val) w = 1#1 := by
      unfold IntOp.cmpi; simp [h]
    rw [e]
    have e1 : ((1#1 : BitVec 1).setWidth 32).toInt = 1 := by decide
    rw [e1]; norm_num
  · rw [if_neg h]
    have e : IntOp.cmpi .eq (BitVec.ofNat 32 k.val) w = 0#1 := by
      show BitVec.ofBool (BitVec.ofNat 32 k.val == w) = 0#1
      rw [beq_eq_false_iff_ne.2 h]; rfl
    rw [e]
    have e0 : ((0#1 : BitVec 1).setWidth 32).toInt = 0 := by decide
    rw [e0]; norm_num

/-- The one-hot block at class `k`, lane `q`: the weight of `k` under lane `q`'s label. -/
theorem hot_apply (x1 : Vec Ideal S1x65536 .i32) (k : Fin 5) (q : Fin 65536) :
    k0_pay5 (F := Ideal) x1 (ix2 k q) = Cert.MFE.hot (x1 (ix2 0 q)) k := by
  unfold k0_pay5
  show ((((IntOp.cmpi .eq (iota .tc S5x65536 32 [0] iota_S5x65536_d0_w32 (ix2 k q))
      (broadcastTo S5x65536 (shapeCast S1x65536 x1 shapeCasts_S1x65536_S1x65536) broadcasts_S1x65536_S5x65536 (ix2 k q))).setWidth 32).toInt : ℝ) : EReal) = _
  rw [iota_single_apply, down_apply, shapeCast_self]
  exact word_hot _ k

/-! ## The payload's values by name -/

/-- The block less each lane's largest entry. -/
def shifted (x : FVec Ideal S5x65536 .f32) : FVec Ideal S5x65536 .f32 :=
  subf x (broadcastTo S5x65536 (shapeCast S1x65536 (multiReduction .maximumf [0] S65536 x 0xFF800000#32 reduces_S5x65536_S65536 (.inl rfl) rfl) shapeCasts_S65536_S1x65536) broadcasts_S1x65536_S5x65536)

/-- The block of log-softmax values. -/
def lsmBlock (x : FVec Ideal S5x65536 .f32) : FVec Ideal S5x65536 .f32 :=
  subf (shifted x) (broadcastTo S5x65536 (log (shapeCast S1x65536 (multiReduction .add [0] S65536 (exp (shifted x)) 0x00000000#32 reduces_S5x65536_S65536 (.inl rfl) rfl) shapeCasts_S65536_S1x65536)) broadcasts_S1x65536_S5x65536)

/-- Each lane's one-hot-weighted log-softmax, summed over the classes and negated, as a row. -/
def negPicked (x : FVec Ideal S5x65536 .f32) (x1 : Vec Ideal S1x65536 .i32) : FVec Ideal S1x65536 .f32 :=
  subf (broadcast S1x65536 (Scalar.ofBits .f32 0x00000000#32)) (shapeCast S1x65536 (multiReduction .add [0] S65536 (mulf (lsmBlock x) (k0_pay5 x1)) 0x00000000#32 reduces_S5x65536_S65536 (.inl rfl) rfl) shapeCasts_S65536_S1x65536)

/-- Per class, the sum over the lanes of that row weighted by the one-hot block. -/
def classSums (x : FVec Ideal S5x65536 .f32) (x1 : Vec Ideal S1x65536 .i32) : FVec Ideal S5 .f32 :=
  multiReduction .add [1] S5 (mulf (broadcastTo S5x65536 (negPicked x x1) broadcasts_S1x65536_S5x65536) (k0_pay5 x1)) 0x00000000#32 reduces_S5x65536_S5 (.inl rfl) rfl

/-- The payload is the carried column plus the per-class sums laid as a column. -/
theorem pay7_eq (x0 : Vec Ideal S5x65536 .f32) (x1 : Vec Ideal S1x65536 .i32) (acc : Vec Ideal S5x1 .f32) :
    k0_pay7 (F := Ideal) x0 x1 acc
      = shapeCast S5x1 (addf acc (shapeCast S5x1 (classSums (shapeCast S5x65536 x0 shapeCasts_S5x65536_S5x65536) x1) shapeCasts_S5_S5x1)) shapeCasts_S5x1_S5x1 := rfl

/-! ## Each value at a class and a lane -/

/-- The logarithm and the exponential of a vector, entry by entry. -/
theorem log_apply {s : Shape} (v : FVec Ideal s .f32) (i : s.Idx) : log v i = Ideal.log (v i) := rfl
theorem exp_apply {s : Shape} (v : FVec Ideal s .f32) (i : s.Idx) : exp v i = Ideal.exp (v i) := rfl

/-- A lane's maximum over the five classes is the row's maximum. -/
theorem max_apply (x : FVec Ideal S5x65536 .f32) (h : S5x65536.Reduces [0] S65536) (hφ : FKind.Formats .f32)
    (hacc : (0xFF800000#32 : BitVec 32) = FKind.maximumf.neutral .f32 hφ) (q : Fin 65536) :
    multiReduction .maximumf [0] S65536 x 0xFF800000#32 h hφ hacc (ix1 q) = Cert.MFE.rowMax (brows x) q := by
  refine (Ideal.multiReduction_maximumf_single x _ h hφ hacc (ix1 q)).trans ?_
  have e : (x ∘ h.lift (ix1 q)) = fun k : Fin 5 => x (ix2 k q) := funext fun k => congrArg x (lift0 h q k)
  rw [e]
  rfl

/-- A lane's sum over the five classes reads the block at `(k, q)`. -/
theorem sum0_apply (y : FVec Ideal S5x65536 .f32) (h : S5x65536.Reduces [0] S65536) (hφ : FKind.Formats .f32)
    (hacc : (0x00000000#32 : BitVec 32) = FKind.add.neutral .f32 hφ) (q : Fin 65536) :
    multiReduction .add [0] S65536 y 0x00000000#32 h hφ hacc (ix1 q) = ∑ k : Fin 5, y (ix2 k q) := by
  refine (Ideal.multiReduction_add_single y _ h hφ hacc (ix1 q)).trans ?_
  show ∑ k : Fin 5, y (h.lift (ix1 q) k) = ∑ k : Fin 5, y (ix2 k q)
  exact Finset.sum_congr rfl fun k _ => congrArg y (lift0 h q k)

/-- A class's sum over the lanes reads the block at `(c, q)`. -/
theorem sum1_apply (y : FVec Ideal S5x65536 .f32) (h : S5x65536.Reduces [1] S5) (hφ : FKind.Formats .f32)
    (hacc : (0x00000000#32 : BitVec 32) = FKind.add.neutral .f32 hφ) (c : Fin 5) :
    multiReduction .add [1] S5 y 0x00000000#32 h hφ hacc (ix1 c) = ∑ q : Fin 65536, y (ix2 c q) := by
  refine (Ideal.multiReduction_add_single y _ h hφ hacc (ix1 c)).trans ?_
  show ∑ q : Fin 65536, y (h.lift (ix1 c) q) = ∑ q : Fin 65536, y (ix2 c q)
  exact Finset.sum_congr rfl fun q _ => congrArg y (lift1 h c q)

/-- The shifted block at `(k, q)`: the logit less its row's maximum. -/
theorem shifted_apply (x : FVec Ideal S5x65536 .f32) (k : Fin 5) (q : Fin 65536) :
    shifted x (ix2 k q) = x (ix2 k q) - Cert.MFE.rowMax (brows x) q := by
  unfold shifted
  refine (subf_apply _ _ _).trans ?_
  refine congrArg (fun t => x (ix2 k q) - t) ?_
  refine (down_apply _ _ k q).trans ?_
  refine (row_apply _ _ q).trans ?_
  exact max_apply x _ _ _ q

/-- The log-softmax block at `(k, q)` is the row's log-softmax at class `k`. -/
theorem lsmBlock_apply (x : FVec Ideal S5x65536 .f32) (k : Fin 5) (q : Fin 65536) :
    lsmBlock x (ix2 k q) = Cert.MFE.lsm (brows x) q k := by
  unfold lsmBlock
  refine (subf_apply _ _ _).trans ?_
  unfold Cert.MFE.lsm
  refine congrArg₂ (· - ·) (shifted_apply x k q) ?_
  refine (down_apply _ _ k q).trans ?_
  refine (log_apply _ _).trans ?_
  refine congrArg Ideal.log ?_
  refine (row_apply _ _ q).trans ?_
  refine (sum0_apply _ _ _ _ q).trans ?_
  unfold Cert.MFE.rowExpSum
  exact Finset.sum_congr rfl fun j _ => (exp_apply _ _).trans (congrArg Ideal.exp (shifted_apply x j q))

/-- A lane's negated pick: `0 − ∑ₖ lsm(q, k) · hot(label q, k)`. -/
theorem negPicked_apply (x : FVec Ideal S5x65536 .f32) (x1 : Vec Ideal S1x65536 .i32) (q : Fin 65536) :
    negPicked x x1 (ix2 0 q)
      = 0 - ∑ k : Fin 5, Cert.MFE.lsm (brows x) q k * Cert.MFE.hot (x1 (ix2 0 q)) k := by
  unfold negPicked
  refine (subf_apply _ _ _).trans ?_
  refine congrArg₂ (· - ·) ?_ ?_
  · show Ideal.ofBits .f32 0x00000000#32 = 0
    exact Ideal.ofBits_zero_f32
  · refine (row_apply _ _ q).trans ?_
    refine (sum0_apply _ _ _ _ q).trans ?_
    exact Finset.sum_congr rfl fun k _ =>
      (mulf_apply _ _ _).trans (congrArg₂ (· * ·) (lsmBlock_apply x k q) (hot_apply x1 k q))

/-- A class's sum over the lanes is the sum of the rows' loss terms for that class. -/
theorem classSums_apply (x : FVec Ideal S5x65536 .f32) (x1 : Vec Ideal S1x65536 .i32) (c : Fin 5) :
    classSums x x1 (ix1 c) = ∑ q : Fin 65536, Cert.MFE.term (brows x) (blabels x1) c q := by
  unfold classSums
  refine (sum1_apply _ _ _ _ c).trans ?_
  refine Finset.sum_congr rfl fun q _ => ?_
  refine (mulf_apply _ _ _).trans ?_
  refine (congrArg₂ (· * ·) ((down_apply _ _ c q).trans (negPicked_apply x x1 q)) (hot_apply x1 c q)).trans ?_
  unfold Cert.MFE.term
  exact Cert.MFE.onehot_term (fun k => Cert.MFE.lsm (brows x) q k) (x1 (ix2 0 q)) c

theorem pay7_apply (x0 : Vec Ideal S5x65536 .f32) (x1 : Vec Ideal S1x65536 .i32) (acc : Vec Ideal S5x1 .f32) (c : Fin 5) :
    k0_pay7 (F := Ideal) x0 x1 acc (ix2 c 0) = acc (ix2 c 0) + ∑ q : Fin 65536, Cert.MFE.term (brows x0) (blabels x1) c q := by
  refine (congrFun (pay7_eq x0 x1 acc) (ix2 c 0)).trans ?_
  refine (congrFun (shapeCast_self _ _) (ix2 c 0)).trans ?_
  refine (addf_apply _ _ _).trans ?_
  refine congrArg (fun t => acc (ix2 c 0) + t) ?_
  refine (col_apply _ _ c).trans ?_
  refine (congrFun (congrArg (fun y => classSums y x1) (shapeCast_self x0 _)) (ix1 c)).trans ?_
  exact classSums_apply x0 x1 c

end Cert.KernelIdeal.Pay7

end
-- ==== Proof.KernelFinal.lean ====
/-
  The kernel's scalar result, at the extended reals, is the specification's loss of the two arguments.

  Read at class `k`, the loss column after point `n` is the left-nested chain of the per-block loss sums of points
  0 … n, and the count column the chain of the per-block counts; a chain is the sum of its terms; block `b`'s rows
  are rows `65536·b …` of the arguments (a row's term depends on that row's logits and label only); and the sum over
  all rows splits into the blocks. So after the last point the two columns are the specification's per-class loss sums
  and counts, and the output cell, re-shaped, is its `tail` of them.
-/
import proofs.«402154_j54606214202053_1_alg».proof.Proof.KernelValue
import proofs.«402154_j54606214202053_1_alg».proof.Proof.KernelPay
import proofs.«402154_j54606214202053_1_alg».proof.Proof.KernelPay7
import proofs.«402154_j54606214202053_1_alg».proof.Proof.Spec

noncomputable section

open Idealize.ShloMosaic Idealize.ShloMosaic.TcCoe Idealize.SL.Sem Idealize.ShloMosaic.ValueIdx

namespace Cert.KernelIdeal.KFinal

open Cert.KernelIdeal Cert.KernelIdeal.Gen Cert.KernelIdeal.KValue

variable (m : (ℓ : Loc nD τ sig) → Buf (Elt Ideal) ℓ)

/-- The logits argument as rows of five classes, the labels argument as a row-indexed family of words. -/
abbrev rows (c : Dev nD) : Fin 4194304 → Fin 5 → EReal := fun n k => m ((c.tc : Thread nD τ).loc main_arg0) (ix2 n k)
abbrev labels (c : Dev nD) : Fin 4194304 → BitVec 32 := fun n => m ((c.tc : Thread nD τ).loc main_arg1) (ix1 n)

/-- A row's loss term and count term depend on that row's logits and label only. -/
theorem term_congr {N M : Nat} (x : Fin N → Fin 5 → EReal) (y : Fin M → Fin 5 → EReal) (t : Fin N → BitVec 32)
    (s : Fin M → BitVec 32) (k : Fin 5) (n : Fin N) (n' : Fin M) (hx : ∀ j, x n j = y n' j) (ht : t n = s n') :
    Cert.MFE.term x t k n = Cert.MFE.term y s k n' := by
  simp only [Cert.MFE.term, Cert.MFE.lsm, Cert.MFE.rowExpSum, Cert.MFE.rowMax, hx, ht]

theorem unit_congr {N M : Nat} (t : Fin N → BitVec 32) (s : Fin M → BitVec 32) (k : Fin 5) (n : Fin N) (n' : Fin M)
    (ht : t n = s n') : Cert.MFE.unit t k n = Cert.MFE.unit s k n' := by
  simp only [Cert.MFE.unit, ht]

/-- Row `q` of block `b` is row `65536·b + q` of the arguments. -/
theorem block_lt (b : Fin cfg0.N) (q : Fin 65536) : b.val * 65536 + q.val < 4194304 := by
  have hb : b.val < 64 := lt_of_lt_of_eq b.isLt N_0
  have hq := q.isLt
  omega

/-- Point `b`'s loss sum and count for class `k` (nothing past the grid). -/
def blockLoss (c : Dev nD) (k : Fin 5) (b : ℕ) : EReal :=
  if h : b < cfg0.N then ∑ q : Fin 65536, Cert.MFE.term (Pay7.brows (xblk m c ⟨b, h⟩)) (Pay7.blabels (tblk m c ⟨b, h⟩)) k q else 0
def blockCount (c : Dev nD) (k : Fin 5) (b : ℕ) : EReal :=
  if h : b < cfg0.N then ∑ q : Fin 65536, Cert.MFE.unit (Pay.blabels (tblk m c ⟨b, h⟩)) k q else 0

/-- The loss column at class `k` after point `n`: the chain of the block loss sums. -/
theorem lossCol_apply (c : Dev nD) (k : Fin 5) : ∀ (n : ℕ) (h : n < cfg0.N),
    lossCol m c n h (ix2 k 0) = Cert.MFE.chain (blockLoss m c k) n
  | 0, h => by
    show k0_pay7 (F := Ideal) (xblk m c ⟨0, h⟩) (tblk m c ⟨0, h⟩) (k0_pay3 (F := Ideal)) (ix2 k 0) = _
    rw [Pay7.pay7_apply, Pay.pay3_apply, Cert.MFE.zero_eq]
    simp only [Cert.MFE.chain, blockLoss, dif_pos h]
  | n + 1, h => by
    show k0_pay7 (F := Ideal) (xblk m c ⟨n + 1, h⟩) (tblk m c ⟨n + 1, h⟩) (lossCol m c n (Nat.lt_of_succ_lt h)) (ix2 k 0) = _
    rw [Pay7.pay7_apply, lossCol_apply c k n]
    simp only [Cert.MFE.chain, blockLoss, dif_pos h]

/-- The count column at class `k` after point `n`: the chain of the block counts. -/
theorem countCol_apply (c : Dev nD) (k : Fin 5) : ∀ (n : ℕ) (h : n < cfg0.N),
    countCol m c n h (ix2 k 0) = Cert.MFE.chain (blockCount m c k) n
  | 0, h => by
    show k0_pay1 (F := Ideal) (k0_pay6 (tblk m c ⟨0, h⟩)) (k0_pay4 (F := Ideal)) (ix2 k 0) = _
    rw [Pay.pay1_apply, Pay.pay4_apply, Pay.pay6_apply, Cert.MFE.zero_eq]
    simp only [Cert.MFE.chain, blockCount, dif_pos h]
  | n + 1, h => by
    show k0_pay1 (F := Ideal) (k0_pay6 (tblk m c ⟨n + 1, h⟩)) (countCol m c n (Nat.lt_of_succ_lt h)) (ix2 k 0) = _
    rw [Pay.pay1_apply, Pay.pay6_apply, countCol_apply c k n]
    simp only [Cert.MFE.chain, blockCount, dif_pos h]

/-- Block `b`'s loss sum is the sum of the arguments' row terms over rows `65536·b …`. -/
theorem blockLoss_eq (c : Dev nD) (k : Fin 5) (b : Fin 64) :
    blockLoss m c k b.val = ∑ q : Fin 65536, Cert.MFE.term (rows m c) (labels m c) k (Cert.MFE.blockRow b q) := by
  have hb : b.val < cfg0.N := lt_of_lt_of_eq b.isLt N_0.symm
  rw [blockLoss, dif_pos hb]
  refine Finset.sum_congr rfl fun q _ => ?_
  refine term_congr _ _ _ _ k q (Cert.MFE.blockRow b q) (fun j => ?_) ?_
  · exact xblk_apply m c ⟨b.val, hb⟩ j q (block_lt ⟨b.val, hb⟩ q)
  · exact tblk_apply m c ⟨b.val, hb⟩ q (block_lt ⟨b.val, hb⟩ q)

theorem blockCount_eq (c : Dev nD) (k : Fin 5) (b : Fin 64) :
    blockCount m c k b.val = ∑ q : Fin 65536, Cert.MFE.unit (labels m c) k (Cert.MFE.blockRow b q) := by
  have hb : b.val < cfg0.N := lt_of_lt_of_eq b.isLt N_0.symm
  rw [blockCount, dif_pos hb]
  refine Finset.sum_congr rfl fun q _ => ?_
  refine unit_congr _ _ k q (Cert.MFE.blockRow b q) ?_
  exact tblk_apply m c ⟨b.val, hb⟩ q (block_lt ⟨b.val, hb⟩ q)

/-- After the last point the loss column is the per-class loss sums of the arguments, -/
theorem loss_total (c : Dev nD) (k : Fin 5) :
    lossCol m c 63 lastPt.isLt (ix2 k 0) = Cert.MFE.lossSum (rows m c) (labels m c) k := by
  rw [lossCol_apply, Cert.MFE.chain_eq_sum, Finset.sum_range (fun i => blockLoss m c k i)]
  rw [Finset.sum_congr rfl fun b _ => blockLoss_eq m c k b]
  exact (Cert.MFE.sum_blocks (A := 64) (B := 65536) (fun n => Cert.MFE.term (rows m c) (labels m c) k n)).symm

/-- and the count column the per-class counts. -/
theorem count_total (c : Dev nD) (k : Fin 5) :
    countCol m c 63 lastPt.isLt (ix2 k 0) = Cert.MFE.cnt (labels m c) k := by
  rw [countCol_apply, Cert.MFE.chain_eq_sum, Finset.sum_range (fun i => blockCount m c k i)]
  rw [Finset.sum_congr rfl fun b _ => blockCount_eq m c k b]
  exact (Cert.MFE.sum_blocks (A := 64) (B := 65536) (fun n => Cert.MFE.unit (labels m c) k n)).symm

/-- The kernel's scalar result is the loss of the arguments. -/
theorem result_eq (c : Dev nD) (i : S_.Idx) : result m c i = Cert.MFE.mfe (rows m c) (labels m c) := by
  show shapeCast S_ (cell m c) shapeCasts_S1x1_S_ i = _
  unfold shapeCast
  refine (Pay.pay2_apply _ _ _).trans ?_
  have hL : (fun k => lossCol m c 63 lastPt.isLt (ix2 k 0)) = Cert.MFE.lossSum (rows m c) (labels m c) :=
    funext fun k => loss_total m c k
  have hC : (fun k => countCol m c 63 lastPt.isLt (ix2 k 0)) = Cert.MFE.cnt (labels m c) :=
    funext fun k => count_total m c k
  exact congrArg₂ Cert.MFE.tail hL hC

end Cert.KernelIdeal.KFinal

end
-- ==== Proof.RefStages.lean ====
/-
  The reference program's run, stage by stage. Its 63 host operations are taken in five consecutive stretches — the
  log-softmax, the gather along the class axis with its range test, the loss segment sum, the count segment sum, and the
  per-class means with their final sum — and after each stretch the buffer the later stretches read holds that stretch's
  stage of the two arguments. So every weakly fair execution ends with the result buffer at the last stage of the arguments'
  launch contents, and with the arguments unchanged.
-/
import proofs.«402154_j54606214202053_1_alg».proof.Proof.RefRead
import Idealize.ShloMosaic.Lib.StableHlo.Run
import Idealize.ShloMosaic.Lib.Pipeline.Frame

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ValueP (ops main_eq scopedRefs_eq scopedSems_eq ops_sub)
open Cert.ReferenceIdeal.ReadP

variable {F : FTy → Type} [FloatOps F]

/-- Operations 1–15: the log-softmax of the first argument, into `main_v0`. -/
abbrev s1 : List (HloOp τ sig (Elt F)) :=
  [ TRef.nullary (TRef.of (T := ⟨S_, .f32⟩) main_call0_cst) (constant S_ .f32 0xFF800000#32),
    TRef.binary (TRef.of (T := ⟨S4194304x5, .f32⟩) main_arg0) (TRef.of (T := ⟨S_, .f32⟩) main_call0_cst) (TRef.of (T := ⟨S4194304, .f32⟩) main_call0_v0) (fun x v => Host.reduce FloatOps.maximumf x v reducesTo_S4194304x5_S4194304_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4194304, .f32⟩) main_call0_v1) (broadcastInDim S4194304 ![] bcast_S_S4194304),
    TRef.binary (TRef.of (T := ⟨S4194304, .f32⟩) main_call0_v1) (TRef.of (T := ⟨S4194304, .f32⟩) main_call0_v0) (TRef.of (T := ⟨S4194304, .f32⟩) main_call0_v2) maximumf,
    TRef.unary (TRef.of (T := ⟨S4194304, .f32⟩) main_call0_v2) (TRef.of (T := ⟨S4194304x1, .f32⟩) main_call0_v3) (broadcastInDim S4194304x1 ![0] bcast_S4194304_S4194304x1_0),
    TRef.unary (TRef.of (T := ⟨S4194304x1, .f32⟩) main_call0_v3) (TRef.of (T := ⟨S4194304x5, .f32⟩) main_call0_v4) (broadcastInDim S4194304x5 ![0, 1] bcast_S4194304x1_S4194304x5_0_1),
    TRef.binary (TRef.of (T := ⟨S4194304x5, .f32⟩) main_arg0) (TRef.of (T := ⟨S4194304x5, .f32⟩) main_call0_v4) (TRef.of (T := ⟨S4194304x5, .f32⟩) main_call0_v5) subf,
    TRef.unary (TRef.of (T := ⟨S4194304x5, .f32⟩) main_call0_v5) (TRef.of (T := ⟨S4194304x5, .f32⟩) main_call0_v6) Host.exp,
    TRef.nullary (TRef.of (T := ⟨S_, .f32⟩) main_call0_cst_1) (constant S_ .f32 0x00000000#32),
    TRef.binary (TRef.of (T := ⟨S4194304x5, .f32⟩) main_call0_v6) (TRef.of (T := ⟨S_, .f32⟩) main_call0_cst_1) (TRef.of (T := ⟨S4194304, .f32⟩) main_call0_v7) (fun x v => Host.reduceAdd x v reducesTo_S4194304x5_S4194304_d1 h_S_),
    TRef.unary (TRef.of (T := ⟨S4194304, .f32⟩) main_call0_v7) (TRef.of (T := ⟨S4194304x1, .f32⟩) main_call0_v8) (broadcastInDim S4194304x1 ![0] bcast_S4194304_S4194304x1_0),
    TRef.unary (TRef.of (T := ⟨S4194304x1, .f32⟩) main_call0_v8) (TRef.of (T := ⟨S4194304x1, .f32⟩) main_call0_v9) Host.log,
    TRef.unary (TRef.of (T := ⟨S4194304x1, .f32⟩) main_call0_v9) (TRef.of (T := ⟨S4194304x5, .f32⟩) main_call0_v10) (broadcastInDim S4194304x5 ![0, 1] bcast_S4194304x1_S4194304x5_0_1),
    TRef.binary (TRef.of (T := ⟨S4194304x5, .f32⟩) main_call0_v5) (TRef.of (T := ⟨S4194304x5, .f32⟩) main_call0_v10) (TRef.of (T := ⟨S4194304x5, .f32⟩) main_v0) subf ]

/-- Operations 16–38: the second argument as a column, the class index wrapped and range-tested, the gather along the class axis, into `main_v2`. -/
abbrev s2 : List (HloOp τ sig (Elt F)) :=
  [ unary main_arg1 main_v1 (broadcastInDim S4194304x1 ![0] bcast_S4194304_S4194304x1_0 : (⟨S4194304, .i32⟩ : BufTy).Contents (Elt F) → (⟨S4194304x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S4194304x1, .i32⟩) main_call1_v0) (broadcastInDim S4194304x1 ![] bcast_S_S4194304x1),
    TRef.binary (TRef.of (T := ⟨S4194304x1, .i32⟩) main_v1) (TRef.of (T := ⟨S4194304x1, .i32⟩) main_call1_v0) (TRef.of (T := ⟨S4194304x1, .i1⟩) main_call1_v1) (cmpi .slt),
    TRef.nullary (TRef.of (T := ⟨S_, .i32⟩) main_call1_c_0) (constantI S_ 32 5#32),
    TRef.unary (TRef.of (T := ⟨S_, .i32⟩) main_call1_c_0) (TRef.of (T := ⟨S4194304x1, .i32⟩) main_call1_v2) (broadcastInDim S4194304x1 ![] bcast_S_S4194304x1),
    TRef.binary (TRef.of (T := ⟨S4194304x1, .i32⟩) main_v1) (TRef.of (T := ⟨S4194304x1, .i32⟩) main_call1_v2) (TRef.of (T := ⟨S4194304x1, .i32⟩) main_call1_v3) addi,
    TRef.ternary (TRef.of (T := ⟨S4194304x1, .i1⟩) main_call1_v1) (TRef.of (T := ⟨S4194304x1, .i32⟩) main_call1_v3) (TRef.of (T := ⟨S4194304x1, .i32⟩) main_v1) (TRef.of (T := ⟨S4194304x1, .i32⟩) main_call1_v4) select,
    TRef.reshape (TRef.of (T := ⟨S4194304x1, .i32⟩) main_call1_v4) (TRef.of (T := ⟨S4194304x1x1, .i32⟩) main_call1_v5) rfl shapeCasts_S4194304x1_S4194304x1x1,
    TRef.nullary (TRef.of (T := ⟨S1, .i32⟩) main_call1_c_1) (constantI S1 32 4#32),
    TRef.nullary (TRef.of (T := ⟨S_, .i32⟩) main_call1_c_2) (constantI S_ 32 0#32),
    TRef.unary (TRef.of (T := ⟨S_, .i32⟩) main_call1_c_2) (TRef.of (T := ⟨S4194304x1x1, .i32⟩) main_call1_v6) (broadcastInDim S4194304x1x1 ![] bcast_S_S4194304x1x1),
    TRef.binary (TRef.of (T := ⟨S4194304x1x1, .i32⟩) main_call1_v5) (TRef.of (T := ⟨S4194304x1x1, .i32⟩) main_call1_v6) (TRef.of (T := ⟨S4194304x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S4194304x1x1, .i32⟩) main_call1_v9) (broadcastInDim S4194304x1x1 ![0, 1, 2] bcast_S1x1x1_S4194304x1x1_0_1_2),
    TRef.binary (TRef.of (T := ⟨S4194304x1x1, .i32⟩) main_call1_v5) (TRef.of (T := ⟨S4194304x1x1, .i32⟩) main_call1_v9) (TRef.of (T := ⟨S4194304x1x1, .i1⟩) main_call1_v10) (cmpi .sle),
    TRef.binary (TRef.of (T := ⟨S4194304x1x1, .i1⟩) main_call1_v7) (TRef.of (T := ⟨S4194304x1x1, .i1⟩) main_call1_v10) (TRef.of (T := ⟨S4194304x1x1, .i1⟩) main_call1_v11) andi,
    TRef.nullary (TRef.of (T := ⟨S_, .i1⟩) main_call1_c_3) (constantI S_ 1 1#1),
    TRef.binary (TRef.of (T := ⟨S4194304x1x1, .i1⟩) main_call1_v11) (TRef.of (T := ⟨S_, .i1⟩) main_call1_c_3) (TRef.of (T := ⟨S4194304x1, .i1⟩) main_call1_v12) (fun x v => Host.reduce IntOp.andi x v reducesTo_S4194304x1x1_S4194304x1_d2 h_S_),
    TRef.binary (TRef.of (T := ⟨S4194304x5, .f32⟩) main_v0) (TRef.of (T := ⟨S4194304x1x1, .i32⟩) main_call1_v5) (TRef.of (T := ⟨S4194304x1, .f32⟩) main_call1_v13) (fun x i => Host.gather gather_S4194304x5_S4194304x1x1_S4194304x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S4194304x1, .f32⟩) main_call1_v14) (broadcastInDim S4194304x1 ![] bcast_S_S4194304x1),
    TRef.ternary (TRef.of (T := ⟨S4194304x1, .i1⟩) main_call1_v12) (TRef.of (T := ⟨S4194304x1, .f32⟩) main_call1_v13) (TRef.of (T := ⟨S4194304x1, .f32⟩) main_call1_v14) (TRef.of (T := ⟨S4194304x1, .f32⟩) main_v2) select ]

/-- Operations 39–44: the negated gathered column summed per class, into `main_v7`. -/
abbrev s3 : List (HloOp τ sig (Elt F)) :=
  [ reshape main_v2 main_v3 rfl shapeCasts_S4194304x1_S4194304,
    unary main_v3 main_v4 (Host.negf : (⟨S4194304, .f32⟩ : BufTy).Contents (Elt F) → (⟨S4194304, .f32⟩ : BufTy).Contents (Elt F)),
    nullary main_cst (constant S_ .f32 0x00000000#32),
    unary main_cst main_v5 (broadcastInDim S5 ![] bcast_S_S5 : (⟨S_, .f32⟩ : BufTy).Contents (Elt F) → (⟨S5, .f32⟩ : BufTy).Contents (Elt F)),
    unary main_arg1 main_v6 (broadcastInDim S4194304x1 ![0] bcast_S4194304_S4194304x1_0 : (⟨S4194304, .i32⟩ : BufTy).Contents (Elt F) → (⟨S4194304x1, .i32⟩ : BufTy).Contents (Elt F)),
    ternary main_v5 main_v6 main_v4 main_v7 ((fun x i u => Host.scatterAdd scatter_S5_S4194304x1_S4194304_n_0_0_1 x i u) : (⟨S5, .f32⟩ : BufTy).Contents (Elt F) → (⟨S4194304x1, .i32⟩ : BufTy).Contents (Elt F) → (⟨S4194304, .f32⟩ : BufTy).Contents (Elt F) → (⟨S5, .f32⟩ : BufTy).Contents (Elt F)) ]

/-- Operations 45–50: ones summed per class, the class counts, into `main_v11`. -/
abbrev s4 : List (HloOp τ sig (Elt F)) :=
  [ nullary main_cst_0 (constant S_ .f32 0x3F800000#32),
    unary main_cst_0 main_v8 (broadcastInDim S4194304 ![] bcast_S_S4194304 : (⟨S_, .f32⟩ : BufTy).Contents (Elt F) → (⟨S4194304, .f32⟩ : BufTy).Contents (Elt F)),
    nullary main_cst_1 (constant S_ .f32 0x00000000#32),
    unary main_cst_1 main_v9 (broadcastInDim S5 ![] bcast_S_S5 : (⟨S_, .f32⟩ : BufTy).Contents (Elt F) → (⟨S5, .f32⟩ : BufTy).Contents (Elt F)),
    unary main_arg1 main_v10 (broadcastInDim S4194304x1 ![0] bcast_S4194304_S4194304x1_0 : (⟨S4194304, .i32⟩ : BufTy).Contents (Elt F) → (⟨S4194304x1, .i32⟩ : BufTy).Contents (Elt F)),
    ternary main_v9 main_v10 main_v8 main_v11 ((fun x i u => Host.scatterAdd scatter_S5_S4194304x1_S4194304_n_0_0_1 x i u) : (⟨S5, .f32⟩ : BufTy).Contents (Elt F) → (⟨S4194304x1, .i32⟩ : BufTy).Contents (Elt F) → (⟨S4194304, .f32⟩ : BufTy).Contents (Elt F) → (⟨S5, .f32⟩ : BufTy).Contents (Elt F)) ]

/-- Operations 51–63: the per-class means where the count is positive, zero elsewhere, and their sum, into `main_v18`. -/
abbrev s5 : List (HloOp τ sig (Elt F)) :=
  [ nullary main_cst_2 (constant S_ .f32 0x00000000#32),
    unary main_cst_2 main_v12 (broadcastInDim S5 ![] bcast_S_S5 : (⟨S_, .f32⟩ : BufTy).Contents (Elt F) → (⟨S5, .f32⟩ : BufTy).Contents (Elt F)),
    binary main_v11 main_v12 main_v13 (cmpf (F := F) .ogt : (⟨S5, .f32⟩ : BufTy).Contents (Elt F) → (⟨S5, .f32⟩ : BufTy).Contents (Elt F) → (⟨S5, .i1⟩ : BufTy).Contents (Elt F)),
    nullary main_cst_3 (constant S_ .f32 0x3F800000#32),
    unary main_cst_3 main_v14 (broadcastInDim S5 ![] bcast_S_S5 : (⟨S_, .f32⟩ : BufTy).Contents (Elt F) → (⟨S5, .f32⟩ : BufTy).Contents (Elt F)),
    binary main_v11 main_v14 main_v15 (maximumf : (⟨S5, .f32⟩ : BufTy).Contents (Elt F) → (⟨S5, .f32⟩ : BufTy).Contents (Elt F) → (⟨S5, .f32⟩ : BufTy).Contents (Elt F)),
    binary main_v7 main_v15 main_v16 (Host.divf : (⟨S5, .f32⟩ : BufTy).Contents (Elt F) → (⟨S5, .f32⟩ : BufTy).Contents (Elt F) → (⟨S5, .f32⟩ : BufTy).Contents (Elt F)),
    nullary main_cst_4 (constant S_ .f32 0x00000000#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S5, .f32⟩) main_call2_v1) (broadcastInDim S5 ![] bcast_S_S5),
    TRef.ternary (TRef.of (T := ⟨S5, .i1⟩) main_v13) (TRef.of (T := ⟨S5, .f32⟩) main_v16) (TRef.of (T := ⟨S5, .f32⟩) main_call2_v1) (TRef.of (T := ⟨S5, .f32⟩) main_v17) select,
    nullary main_cst_5 (constant S_ .f32 0x00000000#32),
    binary main_v17 main_cst_5 main_v18 ((fun x v => Host.reduceAdd x v reducesTo_S5_S_d0 h_S_) : (⟨S5, .f32⟩ : BufTy).Contents (Elt F) → (⟨S_, .f32⟩ : BufTy).Contents (Elt F) → (⟨S_, .f32⟩ : BufTy).Contents (Elt F)) ]

/-- Contents moved to a typed reference's buffer type and back are the contents. -/
theorem ofBuf_toBuf {Val : EltTy → Type} {T : BufTy} (x : TRef sig T) (v : T.Contents Val) : x.ofBuf (x.toBuf v) = v := by
  obtain ⟨r, h, hd, hu⟩ := x
  subst h
  rfl

/-- The program's operations are the five stretches in a row. -/
theorem ops_cut : (ops : List (HloOp τ sig (Elt F))) = s1 ++ (s2 ++ (s3 ++ (s4 ++ s5))) := rfl

/-! ## The log-softmax -/

set_option maxRecDepth 8192 in
/-- After the first stretch `main_v0` holds the log-softmax stage of what the first argument held. -/
theorem s1_v0 (V : Valuation τ sig (Elt F)) :
    after s1 V (Proc.devRef .tc main_v0) = val_main_v0 (F := F) (V (Proc.devRef .tc main_arg0)) := by
  after_results
  simp only [ofBuf_toBuf]
  rfl

/-- The first stretch writes no argument: the first is kept. -/
theorem s1_arg0 (V : Valuation τ sig (Elt F)) :
    after s1 V (Proc.devRef .tc main_arg0) = V (Proc.devRef .tc main_arg0) := by
  after_results

/-- The first stretch writes no argument: the second is kept. -/
theorem s1_arg1 (V : Valuation τ sig (Elt F)) :
    after s1 V (Proc.devRef .tc main_arg1) = V (Proc.devRef .tc main_arg1) := by
  after_results

/-! ## The gather along the class axis -/

set_option maxRecDepth 8192 in
set_option maxHeartbeats 1000000 in
/-- After the second stretch, from contents with the log-softmax stage of `x0` in `main_v0` and `x1` in the second
    argument, `main_v2` holds the gathered column's stage of `x0` and `x1`: a selection between the gathered element and
    the not-a-number constant by the range test. The range test is the fold of "and" over the unit axis, from true, of the
    two comparisons of the wrapped class index; it is compared with its stage through its operand, the fold itself left
    folded, and the gathered column through the gather's two operands. -/
theorem s2_v2 (V : Valuation τ sig (Elt F)) (x0 : (⟨S4194304x5, .f32⟩ : BufTy).Contents (Elt F))
    (x1 : (⟨S4194304, .i32⟩ : BufTy).Contents (Elt F))
    (h0 : V (Proc.devRef .tc main_v0) = val_main_v0 (F := F) x0) (h1 : V (Proc.devRef .tc main_arg1) = x1) :
    after s2 V (Proc.devRef .tc main_v2) = val_main_v2 (F := F) x0 x1 := by
  after_results_simp
  simp only [ofBuf_toBuf]
  rw [h0, h1]
  refine eq_of_heq ((cast_heq _ _).trans (heq_of_eq ?_))
  unfold val_main_v2
  refine congrArg₂ (fun a b => select a b _) ?_ ?_
  · unfold val_main_call1_v12
    refine congrArg (fun a => Host.reduce IntOp.andi a _ _ _) ?_
    rfl
  · rfl

/-- The second stretch keeps the first argument. -/
theorem s2_arg0 (V : Valuation τ sig (Elt F)) :
    after s2 V (Proc.devRef .tc main_arg0) = V (Proc.devRef .tc main_arg0) := by
  after_results

/-- The second stretch keeps the second argument. -/
theorem s2_arg1 (V : Valuation τ sig (Elt F)) :
    after s2 V (Proc.devRef .tc main_arg1) = V (Proc.devRef .tc main_arg1) := by
  after_results

/-! ## The loss segment sum -/

set_option maxRecDepth 8192 in
/-- After the third stretch, from contents with the gathered column's stage in `main_v2` and `x1` in the second argument,
    `main_v7` holds the loss segment sum's stage. -/
theorem s3_v7 (V : Valuation τ sig (Elt F)) (x0 : (⟨S4194304x5, .f32⟩ : BufTy).Contents (Elt F))
    (x1 : (⟨S4194304, .i32⟩ : BufTy).Contents (Elt F))
    (h2 : V (Proc.devRef .tc main_v2) = val_main_v2 (F := F) x0 x1) (h1 : V (Proc.devRef .tc main_arg1) = x1) :
    after s3 V (Proc.devRef .tc main_v7) = val_main_v7 (F := F) x0 x1 := by
  after_results
  rw [h2, h1]
  rfl

/-- The third stretch keeps the first argument. -/
theorem s3_arg0 (V : Valuation τ sig (Elt F)) :
    after s3 V (Proc.devRef .tc main_arg0) = V (Proc.devRef .tc main_arg0) := by
  after_results

/-- The third stretch keeps the second argument. -/
theorem s3_arg1 (V : Valuation τ sig (Elt F)) :
    after s3 V (Proc.devRef .tc main_arg1) = V (Proc.devRef .tc main_arg1) := by
  after_results

/-! ## The count segment sum -/

set_option maxRecDepth 8192 in
/-- After the fourth stretch, from contents with `x1` in the second argument, `main_v11` holds the class counts' stage. -/
theorem s4_v11 (V : Valuation τ sig (Elt F)) (x1 : (⟨S4194304, .i32⟩ : BufTy).Contents (Elt F))
    (h1 : V (Proc.devRef .tc main_arg1) = x1) :
    after s4 V (Proc.devRef .tc main_v11) = val_main_v11 (F := F) x1 := by
  after_results
  rw [h1]
  rfl

/-- The fourth stretch keeps the loss segment sum. -/
theorem s4_v7 (V : Valuation τ sig (Elt F)) :
    after s4 V (Proc.devRef .tc main_v7) = V (Proc.devRef .tc main_v7) := by
  after_results

/-- The fourth stretch keeps the first argument. -/
theorem s4_arg0 (V : Valuation τ sig (Elt F)) :
    after s4 V (Proc.devRef .tc main_arg0) = V (Proc.devRef .tc main_arg0) := by
  after_results

/-- The fourth stretch keeps the second argument. -/
theorem s4_arg1 (V : Valuation τ sig (Elt F)) :
    after s4 V (Proc.devRef .tc main_arg1) = V (Proc.devRef .tc main_arg1) := by
  after_results

/-! ## The per-class means and their sum -/

set_option maxRecDepth 8192 in
set_option maxHeartbeats 1000000 in
/-- After the last stretch, from contents with the two segment sums' stages in `main_v7` and `main_v11`, `main_v18` holds
    the last stage. -/
theorem s5_v18 (V : Valuation τ sig (Elt F)) (x0 : (⟨S4194304x5, .f32⟩ : BufTy).Contents (Elt F))
    (x1 : (⟨S4194304, .i32⟩ : BufTy).Contents (Elt F))
    (h7 : V (Proc.devRef .tc main_v7) = val_main_v7 (F := F) x0 x1) (h11 : V (Proc.devRef .tc main_v11) = val_main_v11 (F := F) x1) :
    after s5 V (Proc.devRef .tc main_v18) = val_main_v18 (F := F) x0 x1 := by
  after_results
  simp only [ofBuf_toBuf]
  rw [h7, h11]
  rfl

/-- The last stretch keeps the first argument. -/
theorem s5_arg0 (V : Valuation τ sig (Elt F)) :
    after s5 V (Proc.devRef .tc main_arg0) = V (Proc.devRef .tc main_arg0) := by
  after_results

/-- The last stretch keeps the second argument. -/
theorem s5_arg1 (V : Valuation τ sig (Elt F)) :
    after s5 V (Proc.devRef .tc main_arg1) = V (Proc.devRef .tc main_arg1) := by
  after_results

/-! ## The whole run -/

/-- After all 63 operations the result buffer holds the last stage of what the two arguments held. -/
theorem all_v18 (V : Valuation τ sig (Elt F)) :
    after ops V (Proc.devRef .tc main_v18) = val_main_v18 (F := F) (V (Proc.devRef .tc main_arg0)) (V (Proc.devRef .tc main_arg1)) := by
  rw [ops_cut, after_append, after_append, after_append, after_append]
  refine s5_v18 _ _ _ ?_ ?_
  · rw [s4_v7]
    refine s3_v7 _ _ _ ?_ ?_
    · exact s2_v2 _ _ _ (s1_v0 V) (s1_arg1 V)
    · rw [s2_arg1, s1_arg1]
  · refine s4_v11 _ _ ?_
    rw [s3_arg1, s2_arg1, s1_arg1]

/-- The operations keep the first argument. -/
theorem all_arg0 (V : Valuation τ sig (Elt F)) :
    after ops V (Proc.devRef .tc main_arg0) = V (Proc.devRef .tc main_arg0) := by
  rw [ops_cut, after_append, after_append, after_append, after_append, s5_arg0, s4_arg0, s3_arg0, s2_arg0, s1_arg0]

/-- The operations keep the second argument. -/
theorem all_arg1 (V : Valuation τ sig (Elt F)) :
    after ops V (Proc.devRef .tc main_arg1) = V (Proc.devRef .tc main_arg1) := by
  rw [ops_cut, after_append, after_append, after_append, after_append, s5_arg1, s4_arg1, s3_arg1, s2_arg1, s1_arg1]

/-- On every device, for any float values, from any memory with zero counters: every weakly fair execution of @main
    terminates with the result at the last stage of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18)
          = val_main_v18 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  exact (θ_run defs _ _).mono (fun _ h c => ⟨(h c main_v18).trans (all_v18 _), (h c main_arg0).trans (all_arg0 _), (h c main_arg1).trans (all_arg1 _)⟩)
    (run_seq scopedRefs_eq scopedSems_eq defs main (fun _ => ops) main_eq (fun _ => ops_sub) m ρ)

end Cert.ReferenceIdeal.Stages

end
-- ==== Proof.RefNames.lean ====
/-
  The reference's two argument arrays under the names the specification uses: the logits array as rows of five classes,
  the labels array as a row-indexed family of 32-bit words.
-/
import proofs.«402154_j54606214202053_1_alg».proof.Proof.RefRead
import Idealize.ShloMosaic.Lib.ValueIdx

noncomputable section

namespace Cert.ReferenceIdeal.RefNames

open Idealize.ShloMosaic Idealize.ShloMosaic.ValueIdx Cert.ReferenceIdeal

abbrev rows (x : (⟨S4194304x5, .f32⟩ : BufTy).Contents (Elt Ideal)) : Fin 4194304 → Fin 5 → EReal := fun n c => x (ix2 n c)
abbrev labels (t : (⟨S4194304, .i32⟩ : BufTy).Contents (Elt Ideal)) : Fin 4194304 → BitVec 32 := fun n => t (ix1 n)

end Cert.ReferenceIdeal.RefNames

end
-- ==== Proof.RefLsm.lean ====
/-
  The reference's log-softmax stage, read at row `n` and class `c`, is the specification's `lsm` of the logits' rows:
  the host's maximum over the class axis (a fold of `max` from `-∞`, then once more `max` with `-∞`) is the row's maximum,
  and its sum of exponentials from `0` is the row's sum.
-/
import proofs.«402154_j54606214202053_1_alg».proof.Proof.RefRead
import proofs.«402154_j54606214202053_1_alg».proof.Proof.RefNames
import proofs.«402154_j54606214202053_1_alg».proof.Proof.Spec
import Idealize.ShloMosaic.Lib.ValueIdx
import Idealize.ShloMosaic.PureOps.Ideal.Laws
import Idealize.ShloMosaic.PureOps.Reduce

noncomputable section

namespace Cert.ReferenceIdeal.RefLsm

open Idealize.ShloMosaic Idealize.ShloMosaic.ValueIdx Cert.ReferenceIdeal Cert.ReferenceIdeal.ReadP Cert.ReferenceIdeal.Gen

open Cert.ReferenceIdeal.RefNames (rows labels)

/-! ## Indices: a row, and a row with a class -/

/-- Row `n` with class `k` put back on the class axis is the index `(n, k)`. -/
theorem lift_row (h : S4194304x5.Reduces [1] S4194304) (n : Fin 4194304) (k : Fin (S4194304x5.size 1)) :
    h.lift (ix1 n) k = ix2 n (⟨k.val, k.isLt⟩ : Fin 5) := by
  funext a
  apply Fin.ext
  match a with
  | ⟨0, _⟩ => rfl
  | ⟨1, _⟩ => rfl

/-- The column of row maxima (one entry per row) is read, at row `n`, from the vector of row maxima at `n`. -/
theorem idx_v3_row (n : Fin 4194304) : idx_main_call0_v3 (ix2 n (0 : Fin 1)) = ix1 n := by
  funext a
  match a with
  | ⟨0, _⟩ => rfl

/-- The matrix that repeats the column of row maxima along the classes is read, at `(n, c)`, from the column at row `n`. -/
theorem idx_v4_row (n : Fin 4194304) (c : Fin 5) : idx_main_call0_v4 (ix2 n c) = ix2 n (0 : Fin 1) := by
  funext a
  match a with
  | ⟨0, _⟩ => rfl
  | ⟨1, _⟩ => rfl

/-- The `k`-th summand of row `n`'s sum over the classes is the entry `(n, k)`. -/
theorem idx_v7_row (n : Fin 4194304) (k : Fin 5) : idx_main_call0_v7 (ix1 n) k = ix2 n k := by
  funext a
  match a with
  | ⟨0, _⟩ => rfl
  | ⟨1, _⟩ => rfl

/-- The column of row sums is read, at row `n`, from the vector of row sums at `n`. -/
theorem idx_v8_row (n : Fin 4194304) : idx_main_call0_v8 (ix2 n (0 : Fin 1)) = ix1 n := by
  funext a
  match a with
  | ⟨0, _⟩ => rfl

/-- The matrix that repeats the column of logarithms along the classes is read, at `(n, c)`, from the column at row `n`. -/
theorem idx_v10_row (n : Fin 4194304) (c : Fin 5) : idx_main_call0_v10 (ix2 n c) = ix2 n (0 : Fin 1) := by
  funext a
  match a with
  | ⟨0, _⟩ => rfl
  | ⟨1, _⟩ => rfl

/-! ## The row's maximum -/

/-- The host's reduction by `max` over the class axis, from `-∞`, is at row `n` the fold of `max` from `-∞` over the
    row's five logits: the specification's row maximum. -/
theorem v0_eq (x : (⟨S4194304x5, .f32⟩ : BufTy).Contents (Elt Ideal)) (n : Fin 4194304) :
    val_main_call0_v0 (F := Ideal) x (ix1 n) = Cert.MFE.rowMax (rows x) n := by
  have h : S4194304x5.Reduces [1] S4194304 := by decide
  unfold val_main_call0_v0
  have e := Host.reduce_eq_fold_single (FloatOps.maximumf (F := Ideal) (φ := .f32)) x (val_main_call0_cst (F := Ideal)) reducesTo_S4194304x5_S4194304_d1 h h_S_ (ix1 n)
  refine e.trans ?_
  unfold Cert.MFE.rowMax
  have hf : (x ∘ h.lift (ix1 n)) = fun k : Fin 5 => rows x n k := funext fun k => congrArg x (lift_row h n k)
  exact congrArg (fun f => Finset.fold max Cert.MFE.negInf f (Finset.univ : Finset (Fin 5))) hf

/-- The reference takes the maximum of that reduction with `-∞` once more; it is still the row's maximum, since a fold of
    `max` is never below the value it starts from. -/
theorem rowmax_eq (x : (⟨S4194304x5, .f32⟩ : BufTy).Contents (Elt Ideal)) (n : Fin 4194304) :
    val_main_call0_v2 (F := Ideal) x (ix1 n) = Cert.MFE.rowMax (rows x) n := by
  rw [val_main_call0_v2_apply, val_main_call0_v1_apply, val_main_call0_cst_0_apply, v0_eq, Ideal.maximumf_def]
  refine max_eq_right ?_
  unfold Cert.MFE.rowMax
  exact (Finset.le_fold_max _).2 (Or.inl le_rfl)

/-- Broadcast to the column and then along the classes, the row's maximum is read at every `(n, c)`. -/
theorem v4_eq (x : (⟨S4194304x5, .f32⟩ : BufTy).Contents (Elt Ideal)) (n : Fin 4194304) (c : Fin 5) :
    val_main_call0_v4 (F := Ideal) x (ix2 n c) = Cert.MFE.rowMax (rows x) n := by
  rw [val_main_call0_v4_apply, idx_v4_row, val_main_call0_v3_apply, idx_v3_row, rowmax_eq]

/-- The shifted logit at `(n, k)`: the logit less its row's maximum. -/
theorem v5_eq (x : (⟨S4194304x5, .f32⟩ : BufTy).Contents (Elt Ideal)) (n : Fin 4194304) (k : Fin 5) :
    val_main_call0_v5 (F := Ideal) x (ix2 n k) = x (ix2 n k) - Cert.MFE.rowMax (rows x) n := by
  rw [val_main_call0_v5_apply, v4_eq, Ideal.subf_def]

/-! ## The row's sum of exponentials -/

/-- The host's sum over the class axis, from `0`, of the exponentials of the shifted logits is at row `n` the
    specification's row sum. -/
theorem expsum_eq (x : (⟨S4194304x5, .f32⟩ : BufTy).Contents (Elt Ideal)) (n : Fin 4194304) :
    val_main_call0_v7 (F := Ideal) x (ix1 n) = Cert.MFE.rowExpSum (rows x) n := by
  rw [val_main_call0_v7_apply, val_main_call0_cst_1_apply, Ideal.ofBits_def, Ideal.ofBits_zero_f32, zero_add]
  unfold Cert.MFE.rowExpSum
  refine Finset.sum_congr rfl fun k _ => ?_
  rw [idx_v7_row, val_main_call0_v6_apply, v5_eq, Ideal.hostUnary_exp_def]

/-- Its logarithm, broadcast to the column and then along the classes, is read at every `(n, c)`. -/
theorem v10_eq (x : (⟨S4194304x5, .f32⟩ : BufTy).Contents (Elt Ideal)) (n : Fin 4194304) (c : Fin 5) :
    val_main_call0_v10 (F := Ideal) x (ix2 n c) = Ideal.log (Cert.MFE.rowExpSum (rows x) n) := by
  rw [val_main_call0_v10_apply, idx_v10_row, val_main_call0_v9_apply, val_main_call0_v8_apply, idx_v8_row, expsum_eq,
    Ideal.hostUnary_log_def]

/-! ## The log-softmax -/

theorem ref_lsm (x : (⟨S4194304x5, .f32⟩ : BufTy).Contents (Elt Ideal)) (n : Fin 4194304) (c : Fin 5) :
    val_main_v0 (F := Ideal) x (ix2 n c) = Cert.MFE.lsm (rows x) n c := by
  rw [val_main_v0_apply, v5_eq, v10_eq, Ideal.subf_def]
  rfl

end Cert.ReferenceIdeal.RefLsm

end
-- ==== Proof.LibScatterSet.lean ====
/-
  A rank-1 overwriting scatter (`operand.at[indices].set(updates)`, one index per update, the operand's one axis
  inserted) read at an index: the element at `i` is the update of the LAST list entry whose index, read as a signed word,
  is `i`, and the operand's own element where no entry names `i` (an entry whose index is negative or past the end names
  nothing). General: any lengths, any element type.
-/
import Idealize.ShloMosaic.PureOps.ShapeOps
import Idealize.ShloMosaic.Lib.ValueIdx
import Idealize.ShloMosaic.Lib.StableHlo.Predicate

noncomputable section

namespace Cert.LibScatterSet

open Idealize.ShloMosaic Idealize.ShloMosaic.ValueIdx

/-! ## A left fold of overwriting steps, read at one index

A step either leaves the element at `i` alone (a miss) or sets it to the step's own value (a hit). After a fold the
element at `i` is the value of the last hit, or the starting element when every step misses. -/

/-- A fold of steps that all miss `i` leaves the element at `i` as it was. -/
theorem foldl_miss {β ι α : Type} (g : (ι → α) → β → (ι → α)) (i : ι) (hit : β → Prop)
    (hmiss : ∀ r n, ¬ hit n → g r n i = r i) :
    ∀ (l : List β) (x : ι → α), (∀ n ∈ l, ¬ hit n) → l.foldl g x i = x i
  | [], _, _ => rfl
  | a :: l, x, h => by
      rw [List.foldl_cons, foldl_miss g i hit hmiss l (g x a) (fun n hn => h n (List.mem_cons_of_mem _ hn)),
        hmiss x a (h a List.mem_cons_self)]

/-- A fold whose last hit of `i` is the step `k` (every later step misses) ends with `k`'s value at `i`. -/
theorem foldl_last_hit {β ι α : Type} (g : (ι → α) → β → (ι → α)) (i : ι) (hit : β → Prop) (val : β → α)
    (hmiss : ∀ r n, ¬ hit n → g r n i = r i) (hhit : ∀ r n, hit n → g r n i = val n)
    (l₁ l₂ : List β) (k : β) (hk : hit k) (h₂ : ∀ n ∈ l₂, ¬ hit n) (x : ι → α) :
    (l₁ ++ k :: l₂).foldl g x i = val k := by
  rw [List.foldl_append, List.foldl_cons, foldl_miss g i hit hmiss l₂ _ h₂, hhit _ _ hk]

/-! ## Where one update lands -/

/-- Update `j` of the rank-1 scatter lands on operand index `i` exactly when its index word, read signed, is `i`. -/
theorem resultIdx?_eq_some_iff {N n : Nat}
    (d : ScatterDims (⟨1, ![N]⟩ : Shape) (⟨2, ![n, 1]⟩ : Shape) (⟨1, ![n]⟩ : Shape))
    (hu : d.updateWindowDims = []) (hi : d.insertedWindowDims = [0]) (hs : d.scatterDimsToOperandDims = [0])
    (hv : d.indexVectorDim = 1) (idx : IVec (⟨2, ![n, 1]⟩ : Shape) 32) (j : (⟨1, ![n]⟩ : Shape).Idx) (i : Fin N) :
    d.resultIdx? j idx = some (ix1 i) ↔ (idx (StableHlo.Predicate.ixP (j 0))).toInt = (i.val : ℤ) := by
  have hm : (0 : Fin 1) ∈ d.scatterDimsToOperandDims := by rw [hs]; exact List.mem_singleton.mpr rfl
  have hk : (0 : Fin 1) ∉ d.sKept := by
    simp [ScatterDims.sKept, Shape.kept, hi]
  -- the scatter-indices index an update reads: its own row, column 0
  have hsi : ∀ c, d.siIdx j c = StableHlo.Predicate.ixP (j 0) := by
    intro c
    funext b
    match b with
    | ⟨0, _⟩ =>
      unfold ScatterDims.siIdx
      rw [dif_neg (by rw [hv]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ =>
      unfold ScatterDims.siIdx
      rw [dif_pos (by rw [hv])]
      apply Fin.ext
      have hc := c.isLt
      simp only [hs, List.length_singleton] at hc
      show c.val = 0
      omega
  have hstart : d.start j idx 0 = (idx (StableHlo.Predicate.ixP (j 0))).toInt := by
    unfold ScatterDims.start
    rw [dif_pos hm, hsi]
    rfl
  have hwin : d.window j 0 = 0 := by
    unfold ScatterDims.window
    rw [dif_neg hk]
  have hall : ∀ a : Fin 1, a = 0 := fun a => Subsingleton.elim _ _
  unfold ScatterDims.resultIdx?
  split
  · next h =>
    have h0 := h 0
    rw [hstart, hwin] at h0
    constructor
    · intro e
      have e' := congrFun (Option.some.inj e) 0
      have e'' := congrArg Fin.val e'
      simp only [hstart, hwin] at e''
      change ((idx (StableHlo.Predicate.ixP (j 0))).toInt + ((0 : Nat) : ℤ)).toNat = i.val at e''
      omega
    · intro e
      congr 1
      funext a
      rw [hall a]
      apply Fin.ext
      show (d.start j idx 0 + (d.window j 0 : ℤ)).toNat = i.val
      rw [hstart, hwin]
      omega
  · next h =>
    constructor
    · intro e; exact absurd e (by simp)
    · intro e
      exfalso
      apply h
      intro a
      rw [hall a, hstart, hwin]
      have := i.isLt
      show 0 ≤ _ + ((0 : Nat) : ℤ) ∧ _ + ((0 : Nat) : ℤ) < ((N : Nat) : ℤ)
      omega

open Classical in
/-- The overwriting scatter at index `i`. `StableHlo.Predicate.ixP k` is row `k` of the `[n, 1]` index array. -/
theorem scatter_set_apply {α : Type} {N n : Nat}
    (d : ScatterDims (⟨1, ![N]⟩ : Shape) (⟨2, ![n, 1]⟩ : Shape) (⟨1, ![n]⟩ : Shape))
    (hu : d.updateWindowDims = []) (hi : d.insertedWindowDims = [0]) (hs : d.scatterDimsToOperandDims = [0])
    (hv : d.indexVectorDim = 1)
    (x : (⟨1, ![N]⟩ : Shape).Idx → α) (idx : IVec (⟨2, ![n, 1]⟩ : Shape) 32) (upd : (⟨1, ![n]⟩ : Shape).Idx → α) (i : Fin N) :
    Host.scatter d (fun _ b => b) x idx upd (ix1 i)
      = if h : ∃ k : Fin n, (idx (StableHlo.Predicate.ixP k)).toInt = (i.val : ℤ)
            ∧ ∀ k' : Fin n, (idx (StableHlo.Predicate.ixP k')).toInt = (i.val : ℤ) → k' ≤ k
        then upd (ix1 h.choose) else x (ix1 i) := by
  classical
  -- the update numbers that land on `i`
  let hit : Fin (⟨1, ![n]⟩ : Shape).numel → Prop := fun m =>
    d.resultIdx? ((⟨1, ![n]⟩ : Shape).rowMajor.symm m) idx = some (ix1 i)
  have hhitiff : ∀ m, hit m ↔
      (idx (StableHlo.Predicate.ixP ((⟨1, ![n]⟩ : Shape).rowMajor.symm m 0))).toInt = (i.val : ℤ) := fun m =>
    resultIdx?_eq_some_iff d hu hi hs hv idx _ i
  -- an update number is its index's one coordinate
  have hval : ∀ m : Fin (⟨1, ![n]⟩ : Shape).numel, ((⟨1, ![n]⟩ : Shape).rowMajor.symm m 0).val = m.val := fun m => by
    have e := Shape.rowMajor_val_one ((⟨1, ![n]⟩ : Shape).rowMajor.symm m)
    rw [Equiv.apply_symm_apply] at e
    exact e.symm
  -- the scatter is a fold of steps, each a miss or a hit at `i`
  obtain ⟨g, hg, hmiss, hhit⟩ : ∃ g : ((⟨1, ![N]⟩ : Shape).Idx → α) → Fin (⟨1, ![n]⟩ : Shape).numel → ((⟨1, ![N]⟩ : Shape).Idx → α),
      Host.scatter d (fun _ b => b) x idx upd = (List.finRange (⟨1, ![n]⟩ : Shape).numel).foldl g x
      ∧ (∀ r m, ¬ hit m → g r m (ix1 i) = r (ix1 i))
      ∧ (∀ r m, hit m → g r m (ix1 i) = upd ((⟨1, ![n]⟩ : Shape).rowMajor.symm m)) := by
    refine ⟨_, rfl, ?_, ?_⟩
    · intro r m hm
      have hm' : ¬ d.resultIdx? ((⟨1, ![n]⟩ : Shape).rowMajor.symm m) idx = some (ix1 i) := hm
      generalize d.resultIdx? ((⟨1, ![n]⟩ : Shape).rowMajor.symm m) idx = o at hm' ⊢
      cases o with
      | none => rfl
      | some i0 =>
        have hne : ¬ (ix1 i = i0) := fun e => hm' (congrArg some e.symm)
        exact if_neg hne
    · intro r m hm
      have hm' : d.resultIdx? ((⟨1, ![n]⟩ : Shape).rowMajor.symm m) idx = some (ix1 i) := hm
      generalize d.resultIdx? ((⟨1, ![n]⟩ : Shape).rowMajor.symm m) idx = o at hm' ⊢
      subst hm'
      exact if_pos rfl
  rw [hg]
  by_cases h : ∃ k : Fin n, (idx (StableHlo.Predicate.ixP k)).toInt = (i.val : ℤ)
      ∧ ∀ k' : Fin n, (idx (StableHlo.Predicate.ixP k')).toInt = (i.val : ℤ) → k' ≤ k
  · rw [dif_pos h]
    obtain ⟨hk1, hk2⟩ := h.choose_spec
    generalize h.choose = k at hk1 hk2
    -- the update number of `k`, and the list of update numbers split at it
    have hkm : (⟨1, ![n]⟩ : Shape).rowMajor.symm ((⟨1, ![n]⟩ : Shape).rowMajor (ix1 k)) = ix1 k :=
      Equiv.symm_apply_apply _ _
    have hkhit : hit ((⟨1, ![n]⟩ : Shape).rowMajor (ix1 k)) := by
      rw [hhitiff, hkm]; exact hk1
    obtain ⟨l₁, l₂, hsplit⟩ := List.append_of_mem (List.mem_finRange ((⟨1, ![n]⟩ : Shape).rowMajor (ix1 k)))
    have hpw : (l₁ ++ (⟨1, ![n]⟩ : Shape).rowMajor (ix1 k) :: l₂).Pairwise (· < ·) :=
      hsplit ▸ List.pairwise_lt_finRange _
    have hlater : ∀ m ∈ l₂, ¬ hit m := by
      intro m hm hmhit
      have hlt : (⟨1, ![n]⟩ : Shape).rowMajor (ix1 k) < m :=
        List.rel_of_pairwise_cons (List.pairwise_append.1 hpw).2.1 hm
      have hle := hk2 _ ((hhitiff m).1 hmhit)
      have h1 : ((⟨1, ![n]⟩ : Shape).rowMajor (ix1 k)).val = k.val := Shape.rowMajor_val_one _
      have h2 := hval m
      have h3 : ((⟨1, ![n]⟩ : Shape).rowMajor.symm m 0).val ≤ k.val := hle
      have h4 : ((⟨1, ![n]⟩ : Shape).rowMajor (ix1 k)).val < m.val := hlt
      omega
    rw [hsplit, foldl_last_hit g (ix1 i) hit _ hmiss hhit l₁ l₂ _ hkhit hlater x, hkm]
  · rw [dif_neg h]
    -- no entry names `i`: a nonempty set of such entries would have a greatest member
    have hnone : ∀ k : Fin n, (idx (StableHlo.Predicate.ixP k)).toInt ≠ (i.val : ℤ) := by
      intro k hk
      let S : Finset (Fin n) := Finset.univ.filter fun k => (idx (StableHlo.Predicate.ixP k)).toInt = (i.val : ℤ)
      have hne : S.Nonempty := ⟨k, Finset.mem_filter.2 ⟨Finset.mem_univ _, hk⟩⟩
      exact h ⟨S.max' hne, (Finset.mem_filter.1 (S.max'_mem hne)).2,
        fun k' hk' => S.le_max' k' (Finset.mem_filter.2 ⟨Finset.mem_univ _, hk'⟩)⟩
    exact foldl_miss g (ix1 i) hit hmiss _ x fun m _ hmhit => hnone _ ((hhitiff m).1 hmhit)

end Cert.LibScatterSet

end
-- ==== Proof.RefScatter.lean ====
/-
  The reference's two segment sums, read at class `c`: each is the initial `0` plus the sum, over the rows whose label
  word is the word of `c`, of that row's update — the negated gathered log-softmax for the loss, `1` for the count.
  A row whose label is the word of a class passes the gather's range test and gathers its own row at that class;
  a row whose label is no class's word lands outside the five segments and is dropped.
-/
import proofs.«402154_j54606214202053_1_alg».proof.Proof.RefRead
import proofs.«402154_j54606214202053_1_alg».proof.Proof.RefNames
import proofs.«402154_j54606214202053_1_alg».proof.Proof.Spec
import proofs.«402154_j54606214202053_1_alg».proof.Proof.LibScatterSet
import Idealize.ShloMosaic.Lib.ValueIdx
import Idealize.ShloMosaic.Lib.ValueIdxRank1
import Idealize.ShloMosaic.Lib.StableHlo.Predicate
import Idealize.ShloMosaic.PureOps.Ideal.Laws

noncomputable section

namespace Cert.ReferenceIdeal.RefScatter

open Idealize.ShloMosaic Idealize.ShloMosaic.ValueIdx Cert.ReferenceIdeal Cert.ReferenceIdeal.ReadP
open Cert.ReferenceIdeal.RefNames (rows labels)

/-- A 32-bit word read signed is the number of class `c` exactly when it is the word of `c`. -/
theorem toInt_eq_iff_cls (w : BitVec 32) (c : Fin 5) : w.toInt = (c.val : ℤ) ↔ w = Cert.MFE.cls c := by
  have hc : c.val < 2 ^ 31 := by have := c.isLt; omega
  constructor
  · intro h
    apply BitVec.eq_of_toInt_eq
    rw [h, StableHlo.Predicate.toInt_ofNat_small c.val hc]
  · intro h
    rw [h]; exact StableHlo.Predicate.toInt_ofNat_small c.val hc

/-- The pattern of `1.0` is the extended real `1`. -/
theorem one_eq : Cert.MFE.one = 1 := by
  simp [Ideal.ofBits, Ideal.ieee]
  rw [← EReal.coe_mul]
  norm_num

/-- The accumulating scatter into five segments, read at segment `c`: the initial element plus the updates of the rows
    whose index word is the word of `c`. -/
theorem scatterAdd_apply (init : (⟨S5, .f32⟩ : BufTy).Contents (Elt Ideal)) (idx : (⟨S4194304x1, .i32⟩ : BufTy).Contents (Elt Ideal))
    (upd : (⟨S4194304, .f32⟩ : BufTy).Contents (Elt Ideal)) (c : Fin 5) :
    Host.scatterAdd (F := Ideal) (φ := .f32) scatter_S5_S4194304x1_S4194304_n_0_0_1 init idx upd (ix1 c)
      = init (ix1 c) + ∑ n : Fin 4194304, (if idx (StableHlo.Predicate.ixP n) = Cert.MFE.cls c then upd (ix1 n) else 0) := by
  unfold Host.scatterAdd
  rw [Ideal.hostScatterAdd_def]
  unfold Ideal.hostScatterAdd
  refine congrArg (init (ix1 c) + ·) ?_
  rw [Finset.sum_filter]
  refine (Fintype.sum_equiv idxEquiv1 _ _ (fun j => ?_))
  have hiff := (Cert.LibScatterSet.resultIdx?_eq_some_iff scatter_S5_S4194304x1_S4194304_n_0_0_1 rfl rfl rfl rfl idx j c).trans
    (toInt_eq_iff_cls (idx (StableHlo.Predicate.ixP (j 0))) c)
  have hj : upd (ix1 (j 0)) = upd j := congrArg upd (eq_ix1 j).symm
  by_cases h : idx (StableHlo.Predicate.ixP (j 0)) = Cert.MFE.cls c
  · exact (if_pos (hiff.mpr h)).trans ((if_pos h).trans hj).symm
  · exact (if_neg (fun e => h (hiff.mp e))).trans (if_neg h).symm

/-- The labels broadcast to one column, read at row `n`: the label of row `n`. -/
theorem idx_v10_ixP (n : Fin 4194304) : idx_main_v10 (StableHlo.Predicate.ixP n) = ix1 n := by
  funext a; match a with | ⟨0, _⟩ => rfl

theorem idx_v6_ixP (n : Fin 4194304) : idx_main_v6 (StableHlo.Predicate.ixP n) = ix1 n := by
  funext a; match a with | ⟨0, _⟩ => rfl

/-- The word of a class, read unsigned, is the class's number. -/
theorem cls_toNat (c : Fin 5) : (Cert.MFE.cls c).toNat = c.val := by
  have := c.isLt
  simp only [Cert.MFE.cls, BitVec.toNat_ofNat]
  omega

/-- The index normalisation leaves the word of a class as it is: it is not negative. -/
theorem norm_hit (t : (⟨S4194304, .i32⟩ : BufTy).Contents (Elt Ideal)) (j : S4194304x1.Idx) (c : Fin 5)
    (h : t (idx_main_v1 j) = Cert.MFE.cls c) :
    val_main_call1_v4 (F := Ideal) t j = Cert.MFE.cls c := by
  have hc := c.isLt
  have hlt : IntOp.cmpi .slt (Cert.MFE.cls c) 0#32 = 0#1 := by
    apply eq_zero_of_ne_one
    intro e
    have := (StableHlo.Predicate.slt_iff_toNat (a := Cert.MFE.cls c) (b := 0#32) (by rw [cls_toNat]; omega) (by decide)).mp e
    simp at this
  rw [val_main_call1_v4_apply, val_main_call1_v1_apply, val_main_v1_apply, val_main_call1_v0_apply, val_main_call1_c_apply, h,
    hlt, select_zero]

/-- The range test of the gather passes at the word of a class: `0 ≤ c ≤ 4`. -/
theorem range_hit (t : (⟨S4194304, .i32⟩ : BufTy).Contents (Elt Ideal)) (i : S4194304x1x1.Idx) (c : Fin 5)
    (h : t (idx_main_v1 (idx_main_call1_v5 i)) = Cert.MFE.cls c) :
    val_main_call1_v11 (F := Ideal) t i = 1#1 := by
  have hc := c.isLt
  have hge : IntOp.cmpi .sge (Cert.MFE.cls c) 0#32 = 1#1 :=
    (StableHlo.Predicate.sge_iff_toNat (a := Cert.MFE.cls c) (b := 0#32) (by rw [cls_toNat]; omega) (by decide)).mpr (by simp)
  have hle : IntOp.cmpi .sle (Cert.MFE.cls c) 4#32 = 1#1 :=
    (StableHlo.Predicate.sle_iff_toNat (a := Cert.MFE.cls c) (b := 4#32) (by rw [cls_toNat]; omega) (by decide)).mpr
      (by rw [cls_toNat]; show c.val ≤ 4; omega)
  rw [val_main_call1_v11_apply, val_main_call1_v7_apply, val_main_call1_v10_apply, val_main_call1_v5_apply,
    norm_hit t _ c h, val_main_call1_v6_apply, val_main_call1_c_2_apply, val_main_call1_v9_apply, val_main_call1_v8_apply,
    val_main_call1_c_1_apply, hge, hle]
  rfl

/-- A fold over a one-element range is its one step. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]; rfl

/-- A rank-3 index of the start-index array in row `n` reads, through the two reshapes, row `n` of the labels. -/
theorem idx_v5_row (L : S4194304x1x1.Idx) (n : Fin 4194304) (e0 : (L 0).val = n.val) :
    idx_main_v1 (idx_main_call1_v5 L) = ix1 n := by
  have h1 : (L 1).val < 1 := (L 1).isLt
  have h2 : (L 2).val < 1 := (L 2).isLt
  funext a
  match a with
  | ⟨0, _⟩ =>
    apply Fin.ext
    show (((L 0).val * 1 + (L 1).val) * 1 + (L 2).val) / 1 = n.val
    omega

/-- The and-reduction over the last axis, of size one, at a row whose label is the word of a class: the one term of the
    fold is the passing range test. -/
theorem v12_hit (t : (⟨S4194304, .i32⟩ : BufTy).Contents (Elt Ideal)) (n : Fin 4194304) (c : Fin 5)
    (h : t (ix1 n) = Cert.MFE.cls c) :
    val_main_call1_v12 (F := Ideal) t (StableHlo.Predicate.ixP n) = 1#1 := by
  have hR : S4194304x1x1.Reduces [2] S4194304x1 := by decide
  unfold val_main_call1_v12
  refine (Host.reduce_eq_fold_single IntOp.andi _ _ _ hR _ _).trans ?_
  refine (fold_fin_one IntOp.andi _ _).trans ?_
  have e0 : ((hR.lift (StableHlo.Predicate.ixP n) (0 : Fin 1)) 0).val = n.val := rfl
  have h11 : val_main_call1_v11 (F := Ideal) t (hR.lift (StableHlo.Predicate.ixP n) (0 : Fin 1)) = 1#1 :=
    range_hit t _ c (by rw [idx_v5_row _ n e0]; exact h)
  show IntOp.andi (val_main_call1_v11 (F := Ideal) t (hR.lift (StableHlo.Predicate.ixP n) (0 : Fin 1))) 1#1 = 1#1
  rw [h11]
  rfl

local notation "gdims" => gather_S4194304x5_S4194304x1x1_S4194304x1_n_1_0_0_1_2_11

/-- The start indices at a row whose label is the word of class `c`: that word. -/
theorem v5_hit (t : (⟨S4194304, .i32⟩ : BufTy).Contents (Elt Ideal)) (L : S4194304x1x1.Idx) (n : Fin 4194304) (c : Fin 5)
    (e0 : (L 0).val = n.val) (h : t (ix1 n) = Cert.MFE.cls c) :
    val_main_call1_v5 (F := Ideal) t L = Cert.MFE.cls c := by
  rw [val_main_call1_v5_apply]
  exact norm_hit t _ c (by rw [idx_v5_row L n e0]; exact h)

/-- The gather at a row whose label is the word of class `c` reads that row of the operand at column `c`: the row axis
    is a batching axis, the column is the start index, clamped into `[0, 4]`, where `c` already is. -/
theorem v13_hit (x : (⟨S4194304x5, .f32⟩ : BufTy).Contents (Elt Ideal)) (t : (⟨S4194304, .i32⟩ : BufTy).Contents (Elt Ideal))
    (n : Fin 4194304) (c : Fin 5) (h : t (ix1 n) = Cert.MFE.cls c) :
    val_main_call1_v13 (F := Ideal) x t (StableHlo.Predicate.ixP n) = val_main_v0 (F := Ideal) x (ix2 n c) := by
  unfold val_main_call1_v13
  unfold Host.gather
  refine congrArg (val_main_v0 (F := Ideal) x) ?_
  funext a
  refine Fin.ext ?_
  match a with
  | ⟨0, _⟩ =>
    show GatherDims.start gdims (StableHlo.Predicate.ixP n) (val_main_call1_v5 (F := Ideal) t) 0
      + GatherDims.batchCoord gdims (StableHlo.Predicate.ixP n) 0 + GatherDims.offCoord gdims (StableHlo.Predicate.ixP n) 0 = n.val
    rw [GatherDims.start_batching _ _ _ _ (List.mem_singleton.mpr rfl),
      GatherDims.offCoord_eq_zero _ _ _ (fun hk => ((GatherDims.mem_sKept _ _).mp hk).2 (List.mem_singleton.mpr rfl)),
      Nat.zero_add, Nat.add_zero]
    rfl
  | ⟨1, _⟩ =>
    show GatherDims.start gdims (StableHlo.Predicate.ixP n) (val_main_call1_v5 (F := Ideal) t) 1
      + GatherDims.batchCoord gdims (StableHlo.Predicate.ixP n) 1 + GatherDims.offCoord gdims (StableHlo.Predicate.ixP n) 1 = c.val
    rw [GatherDims.batchCoord_eq_zero _ _ _ (fun hk => absurd (List.mem_singleton.mp hk) (by decide)),
      GatherDims.offCoord_eq_zero _ _ _ (fun hk => ((GatherDims.mem_sKept _ _).mp hk).1 (List.mem_singleton.mpr rfl)),
      Nat.add_zero]
    unfold GatherDims.start
    rw [dif_pos (show (1 : Fin 2) ∈ GatherDims.startIndexMap gdims from List.mem_singleton.mpr rfl)]
    have hsi : GatherDims.siIdx gdims (StableHlo.Predicate.ixP n) ⟨List.idxOf (1 : Fin 2) (GatherDims.startIndexMap gdims),
        List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi, v5_hit t _ n c rfl h]
    have hc := c.isLt
    have hti : (Cert.MFE.cls c).toInt = (c.val : ℤ) := StableHlo.Predicate.toInt_ofNat_small c.val (by omega)
    rw [hti]
    show min ((c.val : ℤ).toNat) (5 - 1) = c.val
    omega

/-- The reshape to one axis reads row `n`, column `0`. -/
theorem idx_v3_ix1 (n : Fin 4194304) : idx_main_v3 (ix1 n) = StableHlo.Predicate.ixP n := by
  funext a
  match a with
  | ⟨0, _⟩ => exact Fin.ext (Nat.div_one _)
  | ⟨1, _⟩ => rfl

/-- The per-row update of the loss scatter, at a row whose label is the word of class `c`: the negated log-softmax stage
    of that row at `c`. -/
theorem upd_of_hit (x : (⟨S4194304x5, .f32⟩ : BufTy).Contents (Elt Ideal)) (t : (⟨S4194304, .i32⟩ : BufTy).Contents (Elt Ideal))
    (n : Fin 4194304) (c : Fin 5) (h : t (ix1 n) = Cert.MFE.cls c) :
    val_main_v4 (F := Ideal) x t (ix1 n) = -(val_main_v0 (F := Ideal) x (ix2 n c)) := by
  rw [val_main_v4_apply, val_main_v3_apply, val_main_v2_apply, idx_v3_ix1, v12_hit t n c h, select_one, v13_hit x t n c h,
    Ideal.hostNegf_def, Ideal.negf_def]

/-- The loss segment sum at class `c`. -/
theorem ref_loss (x : (⟨S4194304x5, .f32⟩ : BufTy).Contents (Elt Ideal)) (t : (⟨S4194304, .i32⟩ : BufTy).Contents (Elt Ideal)) (c : Fin 5) :
    val_main_v7 (F := Ideal) x t (ix1 c)
      = Cert.MFE.zero + ∑ n : Fin 4194304, (if labels t n = Cert.MFE.cls c then -(val_main_v0 (F := Ideal) x (ix2 n c)) else 0) := by
  unfold val_main_v7
  rw [scatterAdd_apply, val_main_v5_apply, val_main_cst_apply]
  refine congrArg (Cert.MFE.zero + ·) ?_
  refine Finset.sum_congr rfl (fun n _ => ?_)
  rw [val_main_v6_apply, idx_v6_ixP]
  by_cases h : t (ix1 n) = Cert.MFE.cls c
  · rw [if_pos h, if_pos h, upd_of_hit x t n c h]
  · rw [if_neg h, if_neg h]

/-- The count segment sum at class `c`. -/
theorem ref_cnt (t : (⟨S4194304, .i32⟩ : BufTy).Contents (Elt Ideal)) (c : Fin 5) :
    val_main_v11 (F := Ideal) t (ix1 c) = Cert.MFE.zero + Cert.MFE.cnt (labels t) c := by
  unfold val_main_v11
  rw [scatterAdd_apply, val_main_v9_apply, val_main_cst_1_apply]
  refine congrArg (Cert.MFE.zero + ·) ?_
  unfold Cert.MFE.cnt
  refine Finset.sum_congr rfl (fun n _ => ?_)
  unfold Cert.MFE.unit
  rw [val_main_v10_apply, val_main_v8_apply, val_main_cst_0_apply, idx_v10_ixP]
  exact congrArg (fun z => if t (ix1 n) = Cert.MFE.cls c then z else (0 : EReal)) one_eq

end Cert.ReferenceIdeal.RefScatter

end
-- ==== Proof.RefFinal.lean ====
/-
  The reference's scalar result, at the extended reals, is the specification's loss of the two arguments: its two segment
  sums are the per-class loss sums (the gathered log-softmax stage being the specification's log-softmax) and counts, and
  its last stretch — compare the count with 0, divide by the larger of the count and 1, select, add up the five classes
  from 0 — is the specification's `tail`.
-/
import proofs.«402154_j54606214202053_1_alg».proof.Proof.RefRead
import proofs.«402154_j54606214202053_1_alg».proof.Proof.RefNames
import proofs.«402154_j54606214202053_1_alg».proof.Proof.RefLsm
import proofs.«402154_j54606214202053_1_alg».proof.Proof.RefScatter
import proofs.«402154_j54606214202053_1_alg».proof.Proof.Spec
import Idealize.ShloMosaic.Lib.ValueIdx
import Idealize.ShloMosaic.PureOps.Ideal.Laws

noncomputable section

namespace Cert.ReferenceIdeal.RefFinal

open Idealize.ShloMosaic Idealize.ShloMosaic.ValueIdx Cert.ReferenceIdeal Cert.ReferenceIdeal.ReadP
open Cert.ReferenceIdeal.RefNames (rows labels)

/-- A rank-1 index is its one coordinate. -/
def ix1Equiv (n : Nat) : Fin n ≃ (⟨1, ![n]⟩ : Shape).Idx :=
  ⟨ix1, fun j => j 0, fun _ => rfl, fun j => (eq_ix1 j).symm⟩

/-- The count segment sum at class `k` is the number of rows labelled `k`. -/
theorem cnt_at (t : (⟨S4194304, .i32⟩ : BufTy).Contents (Elt Ideal)) (k : Fin 5) :
    val_main_v11 (F := Ideal) t (ix1 k) = Cert.MFE.cnt (labels t) k := by
  rw [RefScatter.ref_cnt, Cert.MFE.zero_eq, zero_add]

/-- The loss segment sum at class `k` is the loss summed over the rows labelled `k`. -/
theorem loss_at (x : (⟨S4194304x5, .f32⟩ : BufTy).Contents (Elt Ideal)) (t : (⟨S4194304, .i32⟩ : BufTy).Contents (Elt Ideal))
    (k : Fin 5) : val_main_v7 (F := Ideal) x t (ix1 k) = Cert.MFE.lossSum (rows x) (labels t) k := by
  rw [RefScatter.ref_loss, Cert.MFE.zero_eq, zero_add]
  unfold Cert.MFE.lossSum Cert.MFE.term
  refine Finset.sum_congr rfl fun n _ => ?_
  rw [RefLsm.ref_lsm]

/-- The reference's result is the loss of its arguments. -/
theorem ref_value (x : (⟨S4194304x5, .f32⟩ : BufTy).Contents (Elt Ideal)) (t : (⟨S4194304, .i32⟩ : BufTy).Contents (Elt Ideal))
    (i : S_.Idx) : val_main_v18 (F := Ideal) x t i = Cert.MFE.mfe (rows x) (labels t) := by
  rw [val_main_v18_apply, val_main_cst_5_apply,
    ← Fintype.sum_equiv (ix1Equiv 5) (fun k => val_main_v17 (F := Ideal) x t (ix1 k)) (fun j => val_main_v17 (F := Ideal) x t j)
      (fun k => rfl)]
  have h0 : (FloatOps.ofBits (F := Ideal) .f32 0x00000000#32 : EReal) = 0 := Cert.MFE.zero_eq
  rw [h0, zero_add]
  unfold Cert.MFE.mfe Cert.MFE.tail
  refine Finset.sum_congr rfl fun k _ => ?_
  rw [val_main_v17_apply, val_main_v13_apply, val_main_v16_apply, val_main_v15_apply, val_main_v12_apply,
    val_main_cst_2_apply, val_main_v14_apply, val_main_cst_3_apply, val_main_call2_v1_apply, val_main_call2_v0_apply,
    val_main_cst_4_apply, loss_at, cnt_at]
  rfl

end Cert.ReferenceIdeal.RefFinal

end
-- ==== Proof.lean ====
/-
  The certificate of the mean-false-error loss kernel against its jnp reference.

  The kernel transposes the logits to class-major, and in one pass over 64 blocks of 65536 rows computes each row's
  log-softmax, masks it by the one-hot of the row's label, and accumulates per class the negated log-softmax of the rows
  labelled with that class and their number; the output is the sum over the classes that are present of the mean. The
  reference computes the same log-softmax, gathers it at the label, and segment-sums the losses and the counts by label.
  A label that is no class's word contributes nothing on either side: the kernel's one-hot is all zero for it, and the
  reference's segment sums drop an update that lands outside the five segments.

  Over the extended reals both programs end at the same function of the two arguments (Proof/Spec.lean's `mfe`):
    * the kernel: its generated frame run read as values (Proof/KernelPieces, KernelValue), its body's arithmetic read
      at an index (Proof/KernelPay, KernelPay7), and the accumulation over the grid added up (Proof/KernelFinal);
    * the reference: its run stage by stage (Proof/RefStages) over the stages of Proof/RefRead, the log-softmax stage
      (Proof/RefLsm), the gather and the two segment sums (Proof/RefScatter, over Proof/LibScatterSet), and the last
      stretch (Proof/RefFinal).
  Only commutativity and associativity of the sum, `a · 1 = a`, `a · 0 = 0`, `0 + a = a` and `0 − a = −a` join the two
  sides, so the precondition (finite logits) is not opened. The ideal pass rewrote nothing: `preserves` is `True`.
-/
import proofs.«402154_j54606214202053_1_alg».proof.Defs
import proofs.«402154_j54606214202053_1_alg».proof.Proof.Gen.Kernel
import proofs.«402154_j54606214202053_1_alg».proof.Proof.Gen.Kernel.Frame
import proofs.«402154_j54606214202053_1_alg».proof.Proof.Gen.KernelIdeal
import proofs.«402154_j54606214202053_1_alg».proof.Proof.Gen.KernelIdeal.Frame
import proofs.«402154_j54606214202053_1_alg».proof.Proof.Gen.ReferenceIdeal
import proofs.«402154_j54606214202053_1_alg».proof.Proof.Gen.Pre_finite_inputs
import proofs.«402154_j54606214202053_1_alg».proof.Proof.KernelFinal
import proofs.«402154_j54606214202053_1_alg».proof.Proof.RefStages
import proofs.«402154_j54606214202053_1_alg».proof.Proof.RefFinal
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Stages.run (F := Ideal) m ρ)

theorem preserves : Cert.preserves_Kernel_KernelIdeal := trivial

/-- The reference's last stage of the kernel's arguments is the kernel's scalar result: both are the loss of the two
    arguments. -/
theorem bridge (m : (ℓ : Loc Cert.KernelIdeal.nD Cert.KernelIdeal.τ Cert.KernelIdeal.sig) → Buf (Elt Ideal) ℓ)
    (c : Dev Cert.KernelIdeal.nD) :
    Cert.ReferenceIdeal.ReadP.val_main_v18 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.KValue.result m c := by
  funext i
  rw [Cert.ReferenceIdeal.RefFinal.ref_value, Cert.KernelIdeal.KFinal.result_eq]

/-- At the extended reals the kernel's run ends with its result at the loss of its arguments, and the reference's, from
    arguments that agree, at the same. -/
theorem algebraic : Cert.algebraic_KernelIdeal_ReferenceIdeal := by
  intro m ρ m' ρ' _ hagree
  refine ⟨fun c => Cert.KernelIdeal.KValue.result m c, Cert.KernelIdeal.KValue.run (F := Ideal) m ρ, ?_⟩
  refine (θ_run Cert.ReferenceIdeal.defs _ _).mono (fun _ h c => ⟨(h c).1.trans ?_, (h c).2⟩)
    (Cert.ReferenceIdeal.Stages.run (F := Ideal) m' ρ')
  rw [(hagree c).1, (hagree c).2]
  exact bridge m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
